-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x384 : Shape := ⟨2, ![128, 384]⟩
abbrev S128 : Shape := ⟨1, ![128]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg2 : IVec S800000 32) (main_arg3 : IVec S800000 32) (main_v32 : IVec S_ 1) (main_c_12 : IVec S_ 32) : IVec S_ 1 :=
  let main_v33 : IVec S800000 32 := broadcastInDim S800000 ![] bcast_S_S800000 main_c_12
  let main_v34 : IVec S800000 1 := cmpi .slt main_arg2 main_v33
  let main_c_13 : IVec S_ 1 := constantI S_ 1 1#1
  let main_v35 : IVec S_ 1 := (fun x v => Host.reduce IntOp.andi x v reducesTo_S800000_S_d0 h_S_) main_v34 main_c_13
  let main_v36 : IVec S_ 1 := andi main_v32 main_v35
  let main_c_14 : IVec S_ 32 := constantI S_ 32 0#32
  let main_v37 : IVec S800000 32 := broadcastInDim S800000 ![] bcast_S_S800000 main_c_14
  let main_v38 : IVec S800000 1 := cmpi .sge main_arg3 main_v37
  let main_c_15 : IVec S_ 1 := constantI S_ 1 1#1
  let main_v39 : IVec S_ 1 := (fun x v => Host.reduce IntOp.andi x v reducesTo_S800000_S_d0 h_S_) main_v38 main_c_15
  let main_v40 : IVec S_ 1 := andi main_v36 main_v39
  let main_c_16 : IVec S_ 32 := constantI S_ 32 50000#32
  let main_v41 : IVec S800000 32 := broadcastInDim S800000 ![] bcast_S_S800000 main_c_16
  let main_v42 : IVec S800000 1 := cmpi .slt main_arg3 main_v41
  let main_c_17 : IVec S_ 1 := constantI S_ 1 1#1
  let main_v43 : IVec S_ 1 := (fun x v => Host.reduce IntOp.andi x v reducesTo_S800000_S_d0 h_S_) main_v42 main_c_17
  let main_v44 : IVec S_ 1 := andi main_v40 main_v43
  main_v44

def fn_part1 {F : FTy → Type} [FloatOps F] (main_arg2 : IVec S800000 32) (main_arg3 : IVec S800000 32) (main_arg6 : FVec F S128x256 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S800000 32 := broadcastInDim S800000 ![] bcast_S_S800000 main_c_10
  let main_v30 : IVec S800000 1 := cmpi .sge main_arg2 main_v29
  let main_c_11 : IVec S_ 1 := constantI S_ 1 1#1
  let main_v31 : IVec S_ 1 := (fun x v => Host.reduce IntOp.andi x v reducesTo_S800000_S_d0 h_S_) main_v30 main_c_11
  let main_v32 : IVec S_ 1 := andi main_v28 main_v31
  let main_c_12 : IVec S_ 32 := constantI S_ 32 50000#32
  fn_part2 (F := F) main_arg2 main_arg3 main_v32 main_c_12

def fn {F : FTy → Type} [FloatOps F] (main_arg0 : FVec F S50000x128 .f32) (main_arg1 : FVec F S800000x128 .f32) (main_arg2 : IVec S800000 32) (main_arg3 : IVec S800000 32) (main_arg4 : FVec F S128x384 .f32) (main_arg5 : FVec F S128 .f32) (main_arg6 : FVec F S128x256 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x384 .f32 := Host.absf main_arg4
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x384 : Shape := ⟨2, ![128, 384]⟩
abbrev S128 : Shape := ⟨1, ![128]⟩
abbrev S128x256 : Shape := ⟨2, ![128, 256]⟩
abbrev S800000x1 : Shape := ⟨2, ![800000, 1]⟩
abbrev S_ : Shape := ⟨0, ![]⟩
abbrev S50000 : Shape := ⟨1, ![50000]⟩
abbrev S50000x1 : Shape := ⟨2, ![50000, 1]⟩
abbrev S384x128 : Shape := ⟨2, ![384, 128]⟩
abbrev S128x128 : Shape := ⟨2, ![128, 128]⟩
abbrev S1x128 : Shape := ⟨2, ![1, 128]⟩
abbrev S2000x128 : Shape := ⟨2, ![2000, 128]⟩
abbrev S2000x1 : Shape := ⟨2, ![2000, 1]⟩
abbrev S256x128 : Shape := ⟨2, ![256, 128]⟩
abbrev S10000x128 : Shape := ⟨2, ![10000, 128]⟩

abbrev nBuf : Space → Nat
  | .hbm => 60
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x384, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S800000x1, .i32⟩
  | .hbm, ⟨9, _⟩ => ⟨S800000x128, .f32⟩
  | .hbm, ⟨10, _⟩ => ⟨S_, .f32⟩
  | .hbm, ⟨11, _⟩ => ⟨S50000x128, .f32⟩
  | .hbm, ⟨12, _⟩ => ⟨S800000x1, .i32⟩
  | .hbm, ⟨13, _⟩ => ⟨S50000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S_, .i32⟩
  | .hbm, ⟨19, _⟩ => ⟨S800000, .i32⟩
  | .hbm, ⟨20, _⟩ => ⟨S_, .i32⟩
  | .hbm, ⟨21, _⟩ => ⟨S50000, .i32⟩
  | .hbm, ⟨22, _⟩ => ⟨S800000x1, .i32⟩
  | .hbm, ⟨23, _⟩ => ⟨S50000, .i32⟩
  | .hbm, ⟨24, _⟩ => ⟨S50000, .f32⟩
  | .hbm, ⟨25, _⟩ => ⟨S_, .i32⟩
  | .hbm, ⟨26, _⟩ => ⟨S50000, .i32⟩
  | .hbm, ⟨27, _⟩ => ⟨S50000, .i1⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S384x128, .f32⟩
  | .hbm, ⟨40, _⟩ => ⟨S128x128, .f32⟩
  | .hbm, ⟨41, _⟩ => ⟨S128x128, .bf16⟩
  | .hbm, ⟨42, _⟩ => ⟨S128x128, .f32⟩
  | .hbm, ⟨43, _⟩ => ⟨S128x128, .bf16⟩
  | .hbm, ⟨44, _⟩ => ⟨S128x128, .f32⟩
  | .hbm, ⟨45, _⟩ => ⟨S128x128, .bf16⟩
  | .hbm, ⟨46, _⟩ => ⟨S1x128, .f32⟩
  | .hbm, ⟨47, _⟩ => ⟨S50000x128, .f32⟩
  | .hbm, ⟨48, _⟩ => ⟨S50000x128, .bf16⟩
  | .hbm, ⟨49, _⟩ => ⟨S800000x1, .i32⟩
  | .hbm, ⟨50, _⟩ => ⟨S800000x128, .bf16⟩
  | .hbm, ⟨51, _⟩ => ⟨S800000x1, .i32⟩
  | .hbm, ⟨52, _⟩ => ⟨S800000x128, .bf16⟩
  | .hbm, ⟨53, _⟩ => ⟨S256x128, .f32⟩
  | .hbm, ⟨54, _⟩ => ⟨S128x128, .f32⟩
  | .hbm, ⟨55, _⟩ => ⟨S128x128, .bf16⟩
  | .hbm, ⟨56, _⟩ => ⟨S128x128, .f32⟩
  | .hbm, ⟨57, _⟩ => ⟨S128x128, .bf16⟩
  | .hbm, ⟨58, _⟩ => ⟨S1x128, .f32⟩
  | .hbm, ⟨59, _⟩ => ⟨S800000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .bf16⟩
  | .local _ .vmem, ⟨15, _⟩ => ⟨S2000x128, .bf16⟩
  | .local _ .vmem, ⟨16, _⟩ => ⟨S10000x128, .bf16⟩
  | .local _ .vmem, ⟨17, _⟩ => ⟨S10000x128, .bf16⟩
  | .local _ .vmem, ⟨18, _⟩ => ⟨S10000x128, .bf16⟩
  | .local _ .vmem, ⟨19, _⟩ => ⟨S10000x128, .bf16⟩
  | .local _ .vmem, ⟨20, _⟩ => ⟨S128x128, .bf16⟩
  | .local _ .vmem, ⟨21, _⟩ => ⟨S128x128, .bf16⟩
  | .local _ .vmem, ⟨22, _⟩ => ⟨S1x128, .f32⟩
  | .local _ .vmem, ⟨23, _⟩ => ⟨S10000x128, .f32⟩
  | .local _ .vmem, ⟨24, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev main_call2_v0 : Ref sig .tc := ⟨.hbm, 49, rfl⟩
abbrev main_v29 : Ref sig .tc := ⟨.hbm, 50, rfl⟩
abbrev main_call3_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem5_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  transposes_S128x384_S384x128_1_0 : S128x384.Transposes [1, 0] S384x128
  slices_S384x128_S128x128_0_0 : S384x128.Slices ![0, 0] S128x128
  bitsLt_bf16_f32 : FTy.bits .bf16 < FTy.bits .f32
  slices_S384x128_S128x128_128_0 : S384x128.Slices ![128, 0] S128x128
  slices_S384x128_S128x128_256_0 : S384x128.Slices ![256, 0] S128x128
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  transposes_S128x256_S256x128_1_0 : S128x256.Transposes [1, 0] S256x128
  slices_S256x128_S128x128_0_0 : S256x128.Slices ![0, 0] S128x128
  slices_S256x128_S128x128_128_0 : S256x128.Slices ![128, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .bf16 = 32 ∨ (Rect.block (s := S50000x128) S2000x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S800000x128.size a
  hwx1_0 : ∀ i : grid1.Coords, EltTy.bits .bf16 = 32 ∨ (Rect.block (s := S800000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S800000x128.size a
  hwx1_1 : ∀ i : grid1.Coords, EltTy.bits .bf16 = 32 ∨ (Rect.block (s := S800000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S800000x128.size a
  hwx1_5 : ∀ i : grid1.Coords, EltTy.bits .f32 = 32 ∨ (Rect.block (s := S800000x128) S10000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28_0) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v28_1) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v29) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x384 : Shape := ⟨2, ![128, 384]⟩
abbrev S128 : Shape := ⟨1, ![128]⟩
abbrev S128x256 : Shape := ⟨2, ![128, 256]⟩
abbrev S_ : Shape := ⟨0, ![]⟩
abbrev S800000x1 : Shape := ⟨2, ![800000, 1]⟩
abbrev S800000x256 : Shape := ⟨2, ![800000, 256]⟩
abbrev S50000x256 : Shape := ⟨2, ![50000, 256]⟩
abbrev S50000 : Shape := ⟨1, ![50000]⟩
abbrev S50000x1 : Shape := ⟨2, ![50000, 1]⟩
abbrev S50000x384 : Shape := ⟨2, ![50000, 384]⟩
abbrev S384x128 : Shape := ⟨2, ![384, 128]⟩
abbrev S1x128 : Shape := ⟨2, ![1, 128]⟩
abbrev S256x128 : Shape := ⟨2, ![256, 128]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x384, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S50000x1, .f32⟩
  | .hbm, ⟨29, _⟩ => ⟨S_, .f32⟩
  | .hbm, ⟨30, _⟩ => ⟨S50000x1, .f32⟩
  | .hbm, ⟨31, _⟩ => ⟨S50000x1, .i1⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x256, .f32⟩
  | .hbm, ⟨37, _⟩ => ⟨S50000x256, .f32⟩
  | .hbm, ⟨38, _⟩ => ⟨S_, .f32⟩
  | .hbm, ⟨39, _⟩ => ⟨S_, .f32⟩
  | .hbm, ⟨40, _⟩ => ⟨S50000x256, .i1⟩
  | .hbm, ⟨41, _⟩ => ⟨S50000x256, .f32⟩
  | .hbm, ⟨42, _⟩ => ⟨S50000x256, .f32⟩
  | .hbm, ⟨43, _⟩ => ⟨S50000x384, .f32⟩
  | .hbm, ⟨44, _⟩ => ⟨S384x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S800000x256, .f32⟩
  | .hbm, ⟨71, _⟩ => ⟨S256x128, .f32⟩
  | .hbm, ⟨72, _⟩ => ⟨S800000x128, .f32⟩
  | .hbm, ⟨73, _⟩ => ⟨S1x128, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S800000x128, .f32⟩
  | .hbm, ⟨78, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call1_cst : Ref sig .tc := ⟨.hbm, 49, rfl⟩
abbrev main_call1_v0 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call2_cst : Ref sig .tc := ⟨.hbm, 76, rfl⟩
abbrev main_call2_v0 : Ref sig .tc := ⟨.hbm, 77, rfl⟩
abbrev main_v51 : Ref sig .tc := ⟨.hbm, 78, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  concatenates_S50000x128_S50000x256_S50000x384_d1 : Shape.Concatenates [S50000x128, S50000x256] S50000x384 1
  transposes_S128x384_S384x128_1_0 : S128x384.Transposes [1, 0] S384x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  transposes_S128x256_S256x128_1_0 : S128x256.Transposes [1, 0] S256x128
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  gather_S50000x128_S800000x1_S800000x128_1_0_n_n_0_1_1128_wf : GatherDims.WF S50000x128 S800000x1 S800000x128 [1] [0] [] [0] [] 1 ![1, 128]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x384_S384x128_S50000x128_1_0_0_1_n_n_wf : DotDims.WF S50000x384 S384x128 S50000x128 [1] [0] [0] [1] [] []
  dot_S800000x256_S256x128_S800000x128_1_0_0_1_n_n_wf : DotDims.WF S800000x256 S256x128 S800000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf

class Facts : Prop extends Facts₀ where

variable [Facts]
-- ==== Proof.NodeValue.lean ====
import proofs.«427057_j9414568312948_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- What the node region leaves at (i, j), from its eight input arrays: relu of three 128-term products plus the bias
    row, the two summed arrays scaled row by row by the column `inv`. -/
def nodeVal (x sn se : S50000x128.Idx → EReal) (inv : S50000x1.Idx → EReal) (w1 w2 w3 : S128x128.Idx → EReal)
    (b : S1x128.Idx → EReal) (i : Fin 50000) (j : Fin 128) : EReal :=
  max ((((∑ k : Fin 128, x (ix2 i k) * w1 (ix2 k j))
        + ∑ k : Fin 128, (sn (ix2 i k) * inv (ix2 i 0)) * w2 (ix2 k j))
        + ∑ k : Fin 128, (se (ix2 i k) * inv (ix2 i 0)) * w3 (ix2 k j))
        + b (ix2 0 j)) 0

/-! ## One 2000 x 128 by 128 x 128 product at an entry -/

/-- The left operand's row coordinate is the output's. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column coordinate is the summation index. -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row coordinate is the summation index. -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column coordinate is the output's. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A product into the zero accumulator, read at (p, q): the 128-term sum of row p of the left operand against
    column q of the right one. -/
theorem matmul_zero_apply (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-! ## The two broadcasts of the body -/

/-- A one-column array spread along the lanes reads, at (p, q), the column's entry of row p. -/
theorem broadcast_column_apply (v : FVec Ideal S2000x1 .f32) (p : Fin 2000) (q : Fin 128) :
    broadcastTo S2000x128 v broadcasts_S2000x1_S2000x128 (ix2 p q) = v (ix2 p (0 : Fin 1)) := by
  refine broadcastTo_apply v broadcasts_S2000x1_S2000x128 (ix2 p q) (ix2 p (0 : Fin 1)) fun ax => ?_
  match ax with
  | ⟨0, _⟩ => rfl
  | ⟨1, _⟩ => rfl

/-! ## The body's value at an entry of the block -/

/-- The f32 value the body stores, at entry (p, q) of the block: relu of the three products plus the bias row, the
    second and third left operands first scaled row by row by the column. -/
theorem pay1_apply (v0 : FVec Ideal S2000x1 .f32) (v2 v4 v9 : FVec Ideal S2000x128 .f32)
    (v14 v17 v21 : FVec Ideal S128x128 .bf16) (v25 : FVec Ideal S1x128 .f32) (p : Fin 2000) (q : Fin 128) :
    k0_pay1 (F := Ideal) v0 v2 v4 v9 v14 v17 v21 v25 (ix2 p q)
      = max ((((∑ k : Fin 128, v2 (ix2 p k) * v14 (ix2 k q))
          + ∑ k : Fin 128, (v4 (ix2 p k) * v0 (ix2 p (0 : Fin 1))) * v17 (ix2 k q))
          + ∑ k : Fin 128, (v9 (ix2 p k) * v0 (ix2 p (0 : Fin 1))) * v21 (ix2 k q))
          + v25 (ix2 (0 : Fin 1) q)) 0 := by
  unfold k0_pay1
  simp only [shapeCast_self]
  rw [maximumf_apply, addf_apply, addf_apply, addf_apply, matmul_zero_apply, matmul_zero_apply, matmul_zero_apply,
    broadcastTo_1b_ab_apply, broadcast_apply]
  simp only [truncf_apply, mulf_apply, broadcast_column_apply]
  exact congrArg _ Ideal.ofBits_zero_f32

/-- The bf16 copy the body stores is the same value: a change of float format is the identity on the extended reals. -/
theorem pay2_apply (v0 : FVec Ideal S2000x1 .f32) (v2 v4 v9 : FVec Ideal S2000x128 .f32)
    (v14 v17 v21 : FVec Ideal S128x128 .bf16) (v25 : FVec Ideal S1x128 .f32) (y : S2000x128.Idx) :
    k0_pay2 (F := Ideal) v0 v2 v4 v9 v14 v17 v21 v25 y = k0_pay1 (F := Ideal) v0 v2 v4 v9 v14 v17 v21 v25 y := rfl

/-- The body's value at (p, q) of its block is the layer's formula at row r of the arrays, once each loaded block is
    known to hold the rows and the columns of its array that the formula reads: row r of the three feature arrays and
    of the column, all of the three weights and of the bias row. -/
theorem block_value (x sn se : S50000x128.Idx → EReal) (inv : S50000x1.Idx → EReal) (w1 w2 w3 : S128x128.Idx → EReal)
    (b : S1x128.Idx → EReal)
    (x0 x1 x2 : FVec Ideal S2000x128 .f32) (x3 : FVec Ideal S2000x1 .f32) (x4 x5 x6 : FVec Ideal S128x128 .bf16)
    (x7 : FVec Ideal S1x128 .f32) (p : Fin 2000) (q : Fin 128) (r : Fin 50000)
    (h0 : ∀ k : Fin 128, x0 (ix2 p k) = x (ix2 r k)) (h1 : ∀ k : Fin 128, x1 (ix2 p k) = sn (ix2 r k))
    (h2 : ∀ k : Fin 128, x2 (ix2 p k) = se (ix2 r k)) (h3 : x3 (ix2 p (0 : Fin 1)) = inv (ix2 r (0 : Fin 1)))
    (h4 : ∀ k : Fin 128, x4 (ix2 k q) = w1 (ix2 k q)) (h5 : ∀ k : Fin 128, x5 (ix2 k q) = w2 (ix2 k q))
    (h6 : ∀ k : Fin 128, x6 (ix2 k q) = w3 (ix2 k q)) (h7 : x7 (ix2 (0 : Fin 1) q) = b (ix2 (0 : Fin 1) q)) :
    k0_pay1 (F := Ideal) x3 x0 x1 x2 x4 x5 x6 x7 (ix2 p q) = nodeVal x sn se inv w1 w2 w3 b r q := by
  rw [pay1_apply]
  unfold nodeVal
  simp only [h0, h1, h2, h3, h4, h5, h6, h7]

variable (V : (c : Dev nD) → (b : Ref sig .tc) → Buf (Elt Ideal) ((c : Thread nD τ).loc b))

/-! ## From blocks to the array -/

/-- The body loads and stores whole staging buffers: every rectangle starts at offset (0, 0). -/
theorem zero_offsets : (![0, 0] : Fin 2 → Nat) = fun _ => 0 := funext fun a => by fin_cases a <;> rfl

/-- The layer's formula as one function of the whole arrays. -/
def nodeArr (x sn se : S50000x128.Idx → EReal) (inv : S50000x1.Idx → EReal) (w1 w2 w3 : S128x128.Idx → EReal)
    (b : S1x128.Idx → EReal) : S50000x128.Idx → EReal :=
  fun i => nodeVal x sn se inv w1 w2 w3 b ⟨(i 0).val, idx2_lt0 i⟩ ⟨(i 1).val, idx2_lt1 i⟩

/-- The printed index maps over the 25 grid points: the row-blocked windows sit at block (t, 0), the weights and the
    bias at block (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Entry (p, q) of what the body computes at grid point t from the blocks it finds staged is the layer's formula at
    row 2000 t + p: the three feature blocks and the column block are rows 2000 t … 2000 t + 1999 of their arrays,
    the weight and bias blocks are their whole arrays. -/
theorem point_value (c : Dev nD) (t : Fin cfg0.N) (p : Fin 2000) (q : Fin 128) (r : Fin 50000)
    (hr : r.val = t.val * 2000 + p.val) :
    k0_pay1 (F := Ideal) (iblk0 V c 3 t) (iblk0 V c 0 t) (iblk0 V c 1 t) (iblk0 V c 2 t) (iblk0 V c 4 t)
        (iblk0 V c 5 t) (iblk0 V c 6 t) (iblk0 V c 7 t) (ix2 p q)
      = nodeVal (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) r q := by
  obtain ⟨⟨a00, a01⟩, ⟨a10, a11⟩, ⟨a20, a21⟩, ⟨a30, a31⟩, ⟨a40, a41⟩, ⟨a50, a51⟩, ⟨a60, a61⟩, ⟨a70, a71⟩, -, -⟩ :=
    index_facts t
  refine block_value (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (V c (Pipeline.arrRef spec0 6)) (V c (Pipeline.arrRef spec0 7))
    (iblk0 V c 0 t) (iblk0 V c 1 t) (iblk0 V c 2 t) (iblk0 V c 3 t) (iblk0 V c 4 t) (iblk0 V c 5 t) (iblk0 V c 6 t)
    (iblk0 V c 7 t) p q r ?_ ?_ ?_ ?_ ?_ ?_ ?_ ?_
  · intro k
    show V c (Pipeline.arrRef spec0 0) (((cfg0.win 0).blk t).view.emb (ix2 p k)) = V c (Pipeline.arrRef spec0 0) (ix2 r k)
    refine congrArg _ (funext fun a => Fin.ext ?_)
    match a with
    | ⟨0, _⟩ => show win0_0.index t (0 : Fin 2) * 2000 + 1 * p.val = r.val; omega
    | ⟨1, _⟩ => show win0_0.index t (1 : Fin 2) * 128 + 1 * k.val = k.val; omega
  · intro k
    show V c (Pipeline.arrRef spec0 1) (((cfg0.win 1).blk t).view.emb (ix2 p k)) = V c (Pipeline.arrRef spec0 1) (ix2 r k)
    refine congrArg _ (funext fun a => Fin.ext ?_)
    match a with
    | ⟨0, _⟩ => show win0_1.index t (0 : Fin 2) * 2000 + 1 * p.val = r.val; omega
    | ⟨1, _⟩ => show win0_1.index t (1 : Fin 2) * 128 + 1 * k.val = k.val; omega
  · intro k
    show V c (Pipeline.arrRef spec0 2) (((cfg0.win 2).blk t).view.emb (ix2 p k)) = V c (Pipeline.arrRef spec0 2) (ix2 r k)
    refine congrArg _ (funext fun a => Fin.ext ?_)
    match a with
    | ⟨0, _⟩ => show win0_2.index t (0 : Fin 2) * 2000 + 1 * p.val = r.val; omega
    | ⟨1, _⟩ => show win0_2.index t (1 : Fin 2) * 128 + 1 * k.val = k.val; omega
  · show V c (Pipeline.arrRef spec0 3) (((cfg0.win 3).blk t).view.emb (ix2 p (0 : Fin 1))) = V c (Pipeline.arrRef spec0 3) (ix2 r (0 : Fin 1))
    refine congrArg _ (funext fun a => Fin.ext ?_)
    match a with
    | ⟨0, _⟩ => show win0_3.index t (0 : Fin 2) * 2000 + 1 * p.val = r.val; omega
    | ⟨1, _⟩ => show win0_3.index t (1 : Fin 2) * 1 + 1 * 0 = 0; omega
  · intro k
    show V c (Pipeline.arrRef spec0 4) (((cfg0.win 4).blk t).view.emb (ix2 k q)) = V c (Pipeline.arrRef spec0 4) (ix2 k q)
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega
  · intro k
    show V c (Pipeline.arrRef spec0 5) (((cfg0.win 5).blk t).view.emb (ix2 k q)) = V c (Pipeline.arrRef spec0 5) (ix2 k q)
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * q.val = q.val; omega
  · intro k
    show V c (Pipeline.arrRef spec0 6) (((cfg0.win 6).blk t).view.emb (ix2 k q)) = V c (Pipeline.arrRef spec0 6) (ix2 k q)
    refine congrArg _ (funext fun a => Fin.ext ?_)
    match a with
    | ⟨0, _⟩ => show win0_6.index t (0 : Fin 2) * 128 + 1 * k.val = k.val; omega
    | ⟨1, _⟩ => show win0_6.index t (1 : Fin 2) * 128 + 1 * q.val = q.val; omega
  · show V c (Pipeline.arrRef spec0 7) (((cfg0.win 7).blk t).view.emb (ix2 (0 : Fin 1) q)) = V c (Pipeline.arrRef spec0 7) (ix2 (0 : Fin 1) q)
    refine congrArg _ (funext fun a => Fin.ext ?_)
    match a with
    | ⟨0, _⟩ => show win0_7.index t (0 : Fin 2) * 1 + 1 * 0 = 0; omega
    | ⟨1, _⟩ => show win0_7.index t (1 : Fin 2) * 128 + 1 * q.val = q.val; omega

/-- What grid point t writes back to output window 8's array is block t of the layer's formula over the whole arrays. -/
theorem flushed8_eq (c : Dev nD) (t : Fin cfg0.N) :
    (dat0 (F := Ideal) V c).flushed 8 t = ((cfg0.win 8).blk t).view.read (Elt Ideal)
      (nodeArr (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7))) := by
  show (cfg0.win 8).cut (grid0.coords t) ((dat0 (F := Ideal) V c).after 8 t) = _
  rw [after0_8]
  unfold out0_8
  rw [View.canon_unit_zero zero_offsets]
  simp only [View.ld_unit_zero (S := S2000x128) zero_offsets, View.ld_unit_zero (S := S2000x1) zero_offsets,
    View.ld_unit_zero (S := S128x128) zero_offsets, View.ld_unit_zero (S := S1x128) zero_offsets]
  funext y
  obtain ⟨p, q, rfl⟩ : ∃ (p : Fin 2000) (q : Fin 128), y = ix2 p q := ⟨y 0, y 1, eq_ix2 y⟩
  obtain ⟨-, -, -, -, -, -, -, -, ⟨a80, a81⟩, ⟨a90, a91⟩⟩ := index_facts t
  have ht : t.val < 25 := lt_of_lt_of_eq t.isLt N_0
  show k0_pay1 (F := Ideal) (iblk0 V c 3 t) (iblk0 V c 0 t) (iblk0 V c 1 t) (iblk0 V c 2 t) (iblk0 V c 4 t)
        (iblk0 V c 5 t) (iblk0 V c 6 t) (iblk0 V c 7 t) (ix2 p q)
      = nodeArr (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) (((cfg0.win 8).blk t).view.emb (ix2 p q))
  have h0 : ((((cfg0.win 8).blk t).view.emb (ix2 p q)) 0).val = t.val * 2000 + p.val := by
    show win0_8.index t (0 : Fin 2) * 2000 + 1 * p.val = _; omega
  have h1 : ((((cfg0.win 8).blk t).view.emb (ix2 p q)) 1).val = q.val := by
    show win0_8.index t (1 : Fin 2) * 128 + 1 * q.val = _; omega
  refine (point_value V c t p q ⟨((((cfg0.win 8).blk t).view.emb (ix2 p q)) 0).val,
    idx2_lt0 (((cfg0.win 8).blk t).view.emb (ix2 p q))⟩ h0).trans ?_
  unfold nodeArr
  exact congrArg (nodeVal (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7))
    ⟨((((cfg0.win 8).blk t).view.emb (ix2 p q)) 0).val, idx2_lt0 (((cfg0.win 8).blk t).view.emb (ix2 p q))⟩)
    (Fin.ext h1.symm)

/-- An index of window 8's array is in grid point t's block iff each coordinate is in the block's range on its axis. -/
theorem mem_blk8 (t : Fin cfg0.N) (i : S50000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v28_0).slice (win0_8.rect t)).set ↔ _
  rw [View.set_slice_whole, Rect.mem_set_unit]
  exact Iff.rfl

/-- Row r of window 8's array is written by grid point r / 2000. -/
theorem cover8 (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_8 _, ?_⟩
  rw [mem_blk8]
  obtain ⟨-, -, -, -, -, -, -, -, ⟨a80, a81⟩, ⟨a90, a91⟩⟩ := index_facts ⟨(i 0).val / 2000, by rw [hN]; omega⟩
  intro a
  match a with
  | ⟨0, _⟩ =>
    show win0_8.index ⟨(i 0).val / 2000, _⟩ (0 : Fin 2) * 2000 ≤ (i 0).val
      ∧ (i 0).val < win0_8.index ⟨(i 0).val / 2000, _⟩ (0 : Fin 2) * 2000 + 2000
    rw [a80]; show (i 0).val / 2000 * 2000 ≤ (i 0).val ∧ (i 0).val < (i 0).val / 2000 * 2000 + 2000; omega
  | ⟨1, _⟩ =>
    show win0_8.index ⟨(i 0).val / 2000, _⟩ (1 : Fin 2) * 128 ≤ (i 1).val
      ∧ (i 1).val < win0_8.index ⟨(i 0).val / 2000, _⟩ (1 : Fin 2) * 128 + 128
    rw [a81]; omega

/-- After the region, window 8's array is the layer's formula over the whole arrays. -/
theorem arr8_eq (c : Dev nD) :
    (dat0 (F := Ideal) V c).arrAt 8 cfg0.N = nodeArr (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) :=
  (dat0 (F := Ideal) V c).arrAt_eq_of_cover 8 _ (fun t _ => flushed8_eq V c t) cover8

/-- What grid point t writes back to output window 9's array is block t of the layer's formula over the whole arrays. -/
theorem flushed9_eq (c : Dev nD) (t : Fin cfg0.N) :
    (dat0 (F := Ideal) V c).flushed 9 t = ((cfg0.win 9).blk t).view.read (Elt Ideal)
      (nodeArr (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7))) := by
  show (cfg0.win 9).cut (grid0.coords t) ((dat0 (F := Ideal) V c).after 9 t) = _
  rw [after0_9]
  unfold out0_9
  rw [View.canon_unit_zero zero_offsets]
  simp only [View.ld_unit_zero (S := S2000x128) zero_offsets, View.ld_unit_zero (S := S2000x1) zero_offsets,
    View.ld_unit_zero (S := S128x128) zero_offsets, View.ld_unit_zero (S := S1x128) zero_offsets]
  funext y
  obtain ⟨p, q, rfl⟩ : ∃ (p : Fin 2000) (q : Fin 128), y = ix2 p q := ⟨y 0, y 1, eq_ix2 y⟩
  obtain ⟨-, -, -, -, -, -, -, -, ⟨a80, a81⟩, ⟨a90, a91⟩⟩ := index_facts t
  have ht : t.val < 25 := lt_of_lt_of_eq t.isLt N_0
  show k0_pay2 (F := Ideal) (iblk0 V c 3 t) (iblk0 V c 0 t) (iblk0 V c 1 t) (iblk0 V c 2 t) (iblk0 V c 4 t)
        (iblk0 V c 5 t) (iblk0 V c 6 t) (iblk0 V c 7 t) (ix2 p q)
      = nodeArr (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) (((cfg0.win 9).blk t).view.emb (ix2 p q))
  have h0 : ((((cfg0.win 9).blk t).view.emb (ix2 p q)) 0).val = t.val * 2000 + p.val := by
    show win0_9.index t (0 : Fin 2) * 2000 + 1 * p.val = _; omega
  have h1 : ((((cfg0.win 9).blk t).view.emb (ix2 p q)) 1).val = q.val := by
    show win0_9.index t (1 : Fin 2) * 128 + 1 * q.val = _; omega
  refine (pay2_apply (iblk0 V c 3 t) (iblk0 V c 0 t) (iblk0 V c 1 t) (iblk0 V c 2 t) (iblk0 V c 4 t)
    (iblk0 V c 5 t) (iblk0 V c 6 t) (iblk0 V c 7 t) (ix2 p q)).trans ?_
  refine (point_value V c t p q ⟨((((cfg0.win 9).blk t).view.emb (ix2 p q)) 0).val,
    idx2_lt0 (((cfg0.win 9).blk t).view.emb (ix2 p q))⟩ h0).trans ?_
  unfold nodeArr
  exact congrArg (nodeVal (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7))
    ⟨((((cfg0.win 9).blk t).view.emb (ix2 p q)) 0).val, idx2_lt0 (((cfg0.win 9).blk t).view.emb (ix2 p q))⟩)
    (Fin.ext h1.symm)

/-- An index of window 9's array is in grid point t's block iff each coordinate is in the block's range on its axis. -/
theorem mem_blk9 (t : Fin cfg0.N) (i : S50000x128.Idx) :
    i ∈ ((cfg0.win 9).blk t).view.set ↔ ∀ a : Fin 2, win0_9.index t a * S2000x128.size a ≤ (i a).val
      ∧ (i a).val < win0_9.index t a * S2000x128.size a + S2000x128.size a := by
  show i ∈ ((View.whole main_v28_1).slice (win0_9.rect t)).set ↔ _
  rw [View.set_slice_whole, Rect.mem_set_unit]
  exact Iff.rfl

/-- Row r of window 9's array is written by grid point r / 2000. -/
theorem cover9 (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_9 _, ?_⟩
  rw [mem_blk9]
  obtain ⟨-, -, -, -, -, -, -, -, ⟨a80, a81⟩, ⟨a90, a91⟩⟩ := index_facts ⟨(i 0).val / 2000, by rw [hN]; omega⟩
  intro a
  match a with
  | ⟨0, _⟩ =>
    show win0_9.index ⟨(i 0).val / 2000, _⟩ (0 : Fin 2) * 2000 ≤ (i 0).val
      ∧ (i 0).val < win0_9.index ⟨(i 0).val / 2000, _⟩ (0 : Fin 2) * 2000 + 2000
    rw [a90]; show (i 0).val / 2000 * 2000 ≤ (i 0).val ∧ (i 0).val < (i 0).val / 2000 * 2000 + 2000; omega
  | ⟨1, _⟩ =>
    show win0_9.index ⟨(i 0).val / 2000, _⟩ (1 : Fin 2) * 128 ≤ (i 1).val
      ∧ (i 1).val < win0_9.index ⟨(i 0).val / 2000, _⟩ (1 : Fin 2) * 128 + 128
    rw [a91]; omega

/-- After the region, window 9's array is the layer's formula over the whole arrays. -/
theorem arr9_eq (c : Dev nD) :
    (dat0 (F := Ideal) V c).arrAt 9 cfg0.N = nodeArr (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) :=
  (dat0 (F := Ideal) V c).arrAt_eq_of_cover 9 _ (fun t _ => flushed9_eq V c t) cover9

/-- Entry (i, j) of the f32 output array after the region is the layer's formula of the eight input arrays. -/
theorem node_f32 (c : Dev nD) (i : Fin 50000) (j : Fin 128) :
    (dat0 (F := Ideal) V c).arrAt 8 cfg0.N (ix2 i j)
      = nodeVal (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) i j := by
  rw [arr8_eq V c]
  rfl

/-- Entry (i, j) of the bf16 copy after the region is the same value. -/
theorem node_bf16 (c : Dev nD) (i : Fin 50000) (j : Fin 128) :
    (dat0 (F := Ideal) V c).arrAt 9 cfg0.N (ix2 i j)
      = nodeVal (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) i j := by
  rw [arr9_eq V c]
  rfl

end Cert.KernelIdeal.NodeValue

end
-- ==== Proof.EdgeValue.lean ====
import proofs.«427057_j9414568312948_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- What the edge region leaves at (e, j), from its five input arrays: relu of two 128-term products plus the bias row. -/
def edgeVal (hu hv : S800000x128.Idx → EReal) (w1 w2 : S128x128.Idx → EReal) (b : S1x128.Idx → EReal)
    (e : Fin 800000) (j : Fin 128) : EReal :=
  max (((∑ k : Fin 128, hu (ix2 e k) * w1 (ix2 k j))
        + ∑ k : Fin 128, hv (ix2 e k) * w2 (ix2 k j))
        + b (ix2 0 j)) 0

/-! ## One block: the body's value at (p, q) of a 10000-row block -/

/-- The left operand's index at output (i) and contraction index q keeps the output's row … -/
theorem lhs_edge_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and runs along the contracted axis in its column. -/
theorem lhs_edge_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's index runs along the contracted axis in its row … -/
theorem rhs_edge_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and keeps the output's column. -/
theorem rhs_edge_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block product into the zero accumulator, at (p, q): the 128-term sum of row p of the left operand against
    column q of the right. -/
theorem matmul_block_apply (x : FVec Ideal S10000x128 .bf16) (w : FVec Ideal S128x128 .bf16) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  show FloatOps.matmul dot_S10000x128_S128x128_S10000x128_1_0_0_1_n_n none x w (constant (F := Ideal) S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_edge_0 _ _
    | ⟨1, _⟩ => exact (lhs_edge_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_edge_0 _ _).trans hk
    | ⟨1, _⟩ => exact rhs_edge_1 _ _)
  rw [el, er]

/-- The body's value at (p, q) of its block: the two products of row p against column q, added, plus the bias row at q,
    and the maximum of that with zero. -/
theorem pay_apply (x0 x5 : Vec Ideal S10000x128 .bf16) (x2 x7 : Vec Ideal S128x128 .bf16) (x11 : Vec Ideal S1x128 .f32)
    (p : Fin 10000) (q : Fin 128) :
    k1_pay1 (F := Ideal) x0 x2 x5 x7 x11 (ix2 p q)
      = max (((∑ k : Fin 128, x0 (ix2 p k) * x2 (ix2 k q)) + ∑ k : Fin 128, x5 (ix2 p k) * x7 (ix2 k q))
          + x11 (ix2 0 q)) 0 := by
  unfold k1_pay1
  simp only [shapeCast_self]
  show max ((matmul dot_S10000x128_S128x128_S10000x128_1_0_0_1_n_n none x0 x2 (constant (F := Ideal) S10000x128 .f32 0x00000000#32) (ix2 p q)
      + matmul dot_S10000x128_S128x128_S10000x128_1_0_0_1_n_n none x5 x7 (constant (F := Ideal) S10000x128 .f32 0x00000000#32) (ix2 p q))
      + broadcastTo S10000x128 x11 broadcasts_S1x128_S10000x128 (ix2 p q)) (Ideal.ofBits .f32 0x00000000#32) = _
  rw [matmul_block_apply, matmul_block_apply, broadcastTo_1b_ab_apply, Ideal.ofBits_zero_f32]

/-! ## From blocks to the array -/

theorem hz : (![0, 0] : Fin 2 → Nat) = fun _ => 0 := funext fun a => by fin_cases a <;> rfl

/-- Row p of the block at grid point n is row 10000 n + p of the array. -/
def rowOf (n : ℕ) (hn : n < 80) (p : Fin 10000) : Fin 800000 := ⟨n * 10000 + p.val, by have := p.isLt; omega⟩

/-- The region's result array as one function of its five input arrays. -/
def edgeArr (hu hv : S800000x128.Idx → EReal) (w1 w2 : S128x128.Idx → EReal) (b : S1x128.Idx → EReal) :
    S800000x128.Idx → EReal :=
  fun i => edgeVal hu hv w1 w2 b ⟨(i 0).val, idx2_lt0 i⟩ ⟨(i 1).val, idx2_lt1 i⟩

/-- The body's value on blocks that are rows 10000 n … 10000 n + 9999 of the two edge-feature arrays, the two whole
    weight blocks and the bias row, at block index y, is the result array at the index y sits at. -/
theorem block_apply (hu hv : S800000x128.Idx → EReal) (w1 w2 : S128x128.Idx → EReal) (b : S1x128.Idx → EReal)
    (x0 x1 : Vec Ideal S10000x128 .bf16) (x2 x3 : Vec Ideal S128x128 .bf16) (x4 : Vec Ideal S1x128 .f32)
    (n : ℕ) (hn : n < 80)
    (h0 : ∀ (p : Fin 10000) (k : Fin 128), x0 (ix2 p k) = hu (ix2 (rowOf n hn p) k))
    (h1 : ∀ (p : Fin 10000) (k : Fin 128), x1 (ix2 p k) = hv (ix2 (rowOf n hn p) k))
    (h2 : ∀ (k q : Fin 128), x2 (ix2 k q) = w1 (ix2 k q))
    (h3 : ∀ (k q : Fin 128), x3 (ix2 k q) = w2 (ix2 k q))
    (h4 : ∀ (q : Fin 128), x4 (ix2 0 q) = b (ix2 0 q))
    (y : S10000x128.Idx) (i : S800000x128.Idx)
    (hi0 : (i 0).val = n * 10000 + (y 0).val) (hi1 : (i 1).val = (y 1).val) :
    k1_pay1 (F := Ideal) x0 x2 x1 x3 x4 y = edgeArr hu hv w1 w2 b i := by
  obtain ⟨p, q, rfl⟩ : ∃ (p : Fin 10000) (q : Fin 128), y = ix2 p q := ⟨y 0, y 1, eq_ix2 y⟩
  rw [pay_apply]
  have er : (⟨(i 0).val, idx2_lt0 i⟩ : Fin 800000) = rowOf n hn p := Fin.ext hi0
  have ec : (⟨(i 1).val, idx2_lt1 i⟩ : Fin 128) = q := Fin.ext hi1
  unfold edgeArr edgeVal
  rw [er, ec]
  simp only [h0, h1, h2, h3, h4]

variable (V : (c : Dev nD) → (b : Ref sig .tc) → Buf (Elt Ideal) ((c : Thread nD τ).loc b))

/-- The printed index maps over the 80 grid points: the two edge-feature windows and the output window sit at block
    (t, 0), the two weight windows and the bias window at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt_80 (t : Fin cfg1.N) : t.val < 80 := lt_of_lt_of_eq t.isLt (N_1 : cfg1.N = 80)

/-- The first edge-feature window's block at point t: rows 10000 t … of its array. -/
theorem iblk_hu (c : Dev nD) (t : Fin cfg1.N) (p : Fin 10000) (k : Fin 128) :
    (iblk1 (F := Ideal) V c 0 t : Vec Ideal S10000x128 .bf16) (ix2 p k)
      = (V c (Pipeline.arrRef spec1 0) : S800000x128.Idx → EReal) (ix2 (rowOf t.val (lt_80 t) p) k) := by
  obtain ⟨e0, e1, -⟩ := idx_facts t
  unfold iblk1
  rw [View.read_apply]
  refine congrArg (V c (Pipeline.arrRef spec1 0)) (funext fun a => Fin.ext ?_)
  match a with
  | ⟨0, _⟩ => show win1_0.index t (0 : Fin 2) * 10000 + 1 * p.val = t.val * 10000 + p.val; omega
  | ⟨1, _⟩ => show win1_0.index t (1 : Fin 2) * 128 + 1 * k.val = k.val; omega

/-- The second edge-feature window's block at point t: the same rows of its array. -/
theorem iblk_hv (c : Dev nD) (t : Fin cfg1.N) (p : Fin 10000) (k : Fin 128) :
    (iblk1 (F := Ideal) V c 1 t : Vec Ideal S10000x128 .bf16) (ix2 p k)
      = (V c (Pipeline.arrRef spec1 1) : S800000x128.Idx → EReal) (ix2 (rowOf t.val (lt_80 t) p) k) := by
  obtain ⟨-, -, e0, e1, -⟩ := idx_facts t
  unfold iblk1
  rw [View.read_apply]
  refine congrArg (V c (Pipeline.arrRef spec1 1)) (funext fun a => Fin.ext ?_)
  match a with
  | ⟨0, _⟩ => show win1_1.index t (0 : Fin 2) * 10000 + 1 * p.val = t.val * 10000 + p.val; omega
  | ⟨1, _⟩ => show win1_1.index t (1 : Fin 2) * 128 + 1 * k.val = k.val; omega

/-- The two weight windows' blocks are their whole arrays at every point … -/
theorem iblk_w1 (c : Dev nD) (t : Fin cfg1.N) (k q : Fin 128) :
    (iblk1 (F := Ideal) V c 2 t : Vec Ideal S128x128 .bf16) (ix2 k q)
      = (V c (Pipeline.arrRef spec1 2) : S128x128.Idx → EReal) (ix2 k q) := by
  obtain ⟨-, -, -, -, e0, e1, -⟩ := idx_facts t
  unfold iblk1
  rw [View.read_apply]
  refine congrArg (V c (Pipeline.arrRef spec1 2)) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega
theorem iblk_w2 (c : Dev nD) (t : Fin cfg1.N) (k q : Fin 128) :
    (iblk1 (F := Ideal) V c 3 t : Vec Ideal S128x128 .bf16) (ix2 k q)
      = (V c (Pipeline.arrRef spec1 3) : S128x128.Idx → EReal) (ix2 k q) := by
  obtain ⟨-, -, -, -, -, -, e0, e1, -⟩ := idx_facts t
  unfold iblk1
  rw [View.read_apply]
  refine congrArg (V c (Pipeline.arrRef spec1 3)) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega
/-- … and so is the bias window's. -/
theorem iblk_b (c : Dev nD) (t : Fin cfg1.N) (q : Fin 128) :
    (iblk1 (F := Ideal) V c 4 t : Vec Ideal S1x128 .f32) (ix2 0 q)
      = (V c (Pipeline.arrRef spec1 4) : S1x128.Idx → EReal) (ix2 0 q) := by
  obtain ⟨-, -, -, -, -, -, -, -, e0, e1, -⟩ := idx_facts t
  unfold iblk1
  rw [View.read_apply]
  refine congrArg (V c (Pipeline.arrRef spec1 4)) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The result array of the region, from the five arrays as the region finds them. -/
abbrev resultArr (c : Dev nD) : S800000x128.Idx → EReal :=
  edgeArr (V c (Pipeline.arrRef spec1 0)) (V c (Pipeline.arrRef spec1 1)) (V c (Pipeline.arrRef spec1 2))
    (V c (Pipeline.arrRef spec1 3)) (V c (Pipeline.arrRef spec1 4))

/-- What point t writes back is block t of the result array. -/
theorem flushed_eq (c : Dev nD) (t : Fin cfg1.N) :
    (dat1 (F := Ideal) V c).flushed 5 t = ((cfg1.win 5).blk t).view.read (Elt Ideal) (resultArr V c) := by
  show (cfg1.win 5).cut (grid1.coords t) ((dat1 (F := Ideal) V c).after 5 t) = _
  rw [after1_5]
  unfold out1_5
  rw [View.canon_unit_zero hz]
  simp only [View.ld_unit_zero (S := S10000x128) hz, View.ld_unit_zero (S := S128x128) hz, View.ld_unit_zero (S := S1x128) hz]
  obtain ⟨-, -, -, -, -, -, -, -, -, -, e0, e1⟩ := idx_facts t
  funext y
  show k1_pay1 (F := Ideal) (iblk1 V c 0 t) (iblk1 V c 2 t) (iblk1 V c 1 t) (iblk1 V c 3 t) (iblk1 V c 4 t) y
    = resultArr V c (((cfg1.win 5).blk t).view.emb y)
  refine block_apply (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) t.val (lt_80 t)
    (iblk_hu V c t) (iblk_hv V c t) (iblk_w1 V c t) (iblk_w2 V c t) (iblk_b V c t) y (((cfg1.win 5).blk t).view.emb y) ?_ ?_
  · show win1_5.index t (0 : Fin 2) * 10000 + 1 * (y 0).val = t.val * 10000 + (y 0).val; omega
  · show win1_5.index t (1 : Fin 2) * 128 + 1 * (y 1).val = (y 1).val; omega

/-- An index of the array is in point t's block iff each coordinate is in the block's range on its axis. -/
theorem mem_blk (t : Fin cfg1.N) (i : S800000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v37).slice (win1_5.rect t)).set ↔ _
  rw [View.set_slice_whole, Rect.mem_set_unit]
  exact Iff.rfl

/-- Row r of the array is in the block of point r / 10000. -/
theorem covered (i : S800000x128.Idx) :
    ∃ t : Fin cfg1.N, (cfg1.win 5).flush t = true ∧ i ∈ ((cfg1.win 5).blk t).view.set := by
  have hi0 : (i 0).val < 800000 := idx2_lt0 i
  have hi1 : (i 1).val < 128 := idx2_lt1 i
  let t : Fin cfg1.N := ⟨(i 0).val / 10000, lt_of_lt_of_eq (show (i 0).val / 10000 < 80 by omega) (N_1 : cfg1.N = 80).symm⟩
  obtain ⟨-, -, -, -, -, -, -, -, -, -, e0, e1⟩ := idx_facts t
  have ht : t.val = (i 0).val / 10000 := rfl
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 128 ≤ (i 1).val ∧ (i 1).val < win1_5.index t (1 : Fin 2) * 128 + 128; omega

/-- The region's result array after the run is that one function of the five arrays as the region finds them. -/
theorem final (c : Dev nD) : (dat1 (F := Ideal) V c).arrAt 5 cfg1.N = resultArr V c :=
  (dat1 (F := Ideal) V c).arrAt_eq_of_cover 5 (resultArr V c) (fun t _ => flushed_eq V c t) covered

theorem edge_f32 (c : Dev nD) (e : Fin 800000) (j : Fin 128) :
    (dat1 (F := Ideal) V c).arrAt 5 cfg1.N (ix2 e j)
      = edgeVal (V c (Pipeline.arrRef spec1 0)) (V c (Pipeline.arrRef spec1 1)) (V c (Pipeline.arrRef spec1 2))
          (V c (Pipeline.arrRef spec1 3)) (V c (Pipeline.arrRef spec1 4)) e j := by
  rw [final]
  rfl

end Cert.KernelIdeal.EdgeValue

end
-- ==== Proof.Spec.lean ====
/-
  The layer both programs compute, as plain formulas over the extended reals.

  A graph has 50000 nodes and 800000 directed edges; edge n runs from node u(n) to node v(n). An endpoint word is read
  as a signed integer; as a ROW to fetch it is clamped into the node range (`node`), as a SEGMENT to add into it is
  taken as it is, and an edge whose target word is no node's number adds nowhere (`inSum`, `deg`).

  For node i: the message of an incoming edge n is the source node's feature row followed by the edge's own feature row;
  the aggregate is the MEAN of the incoming messages (zero for a node with no incoming edge): the sum times the reciprocal
  of the in-degree (`meanOf`). The node's new row is relu of the affine map of (own row, mean source row, mean edge row)
  by the 128 x 384 weight, read in three blocks of 128 columns (`nodeOut`). An edge's new row is relu of the affine
  map of (new row of its source, new row of its target) by the 128 x 256 weight, in two blocks (`edgeOut`).
-/
import Idealize.ShloMosaic.PureOps.Ideal
import Idealize.ShloMosaic.Lib.ValueIdx

noncomputable section

open scoped BigOperators

namespace Cert.Sage

open Idealize.ShloMosaic Idealize.ShloMosaic.ValueIdx

abbrev SNodes : Shape := ⟨2, ![50000, 128]⟩
abbrev SEdges : Shape := ⟨2, ![800000, 128]⟩
abbrev SIds : Shape := ⟨1, ![800000]⟩
abbrev SWn : Shape := ⟨2, ![128, 384]⟩
abbrev SWe : Shape := ⟨2, ![128, 256]⟩
abbrev SB : Shape := ⟨1, ![128]⟩

/-- The node whose row an endpoint word fetches: the word read signed, clamped into 0 … 49999. -/
def node (ids : IVec SIds 32) (n : Fin 800000) : Fin 50000 :=
  ⟨min (ids (ix1 n)).toInt.toNat (50000 - 1), by omega⟩

/-- Edge n points at node k: its target word, read signed, is k. -/
abbrev pointsAt (v : IVec SIds 32) (n : Fin 800000) (k : Fin 50000) : Prop := (v (ix1 n)).toInt = (k.val : ℤ)

/-- The number of edges pointing at node k. -/
def deg (v : IVec SIds 32) (k : Fin 50000) : ℕ :=
  (Finset.univ.filter fun n : Fin 800000 => pointsAt v n k).card

/-- The sum of a per-edge quantity over the edges pointing at node k. -/
def inSum (v : IVec SIds 32) (f : Fin 800000 → EReal) (k : Fin 50000) : EReal :=
  ∑ n : Fin 800000, if pointsAt v n k then f n else 0

/-- A sum over d edges turned into their mean: times 1/d, and zero when there is no edge. -/
def meanOf (d : ℕ) (s : EReal) : EReal := if 0 < d then s * (((1 : ℝ) / (d : ℝ) : ℝ) : EReal) else 0

/-- Columns 0 … 127, 128 … 255 and 256 … 383 of a 384-wide row, and the two halves of a 256-wide one. -/
def col0 (k : Fin 128) : Fin 384 := ⟨k.val, by omega⟩
def col1 (k : Fin 128) : Fin 384 := ⟨128 + k.val, by omega⟩
def col2 (k : Fin 128) : Fin 384 := ⟨256 + k.val, by omega⟩
def half0 (k : Fin 128) : Fin 256 := ⟨k.val, by omega⟩
def half1 (k : Fin 128) : Fin 256 := ⟨128 + k.val, by omega⟩

/-- Mean over the edges into node i of the source node's feature k. -/
def meanSrc (x : SNodes.Idx → EReal) (u v : IVec SIds 32) (i : Fin 50000) (k : Fin 128) : EReal :=
  meanOf (deg v i) (inSum v (fun n => x (ix2 (node u n) k)) i)

/-- Mean over the edges into node i of the edge's own feature k. -/
def meanEdge (ef : SEdges.Idx → EReal) (v : IVec SIds 32) (i : Fin 50000) (k : Fin 128) : EReal :=
  meanOf (deg v i) (inSum v (fun n => ef (ix2 n k)) i)

/-- Node i's new feature j. -/
def nodeOut (x : SNodes.Idx → EReal) (ef : SEdges.Idx → EReal) (u v : IVec SIds 32) (W : SWn.Idx → EReal)
    (b : SB.Idx → EReal) (i : Fin 50000) (j : Fin 128) : EReal :=
  max ((((∑ k : Fin 128, x (ix2 i k) * W (ix2 j (col0 k)))
        + ∑ k : Fin 128, meanSrc x u v i k * W (ix2 j (col1 k)))
        + ∑ k : Fin 128, meanEdge ef v i k * W (ix2 j (col2 k)))
        + b (ix1 j)) 0

/-- Edge e's new feature j, from the nodes' new features H. -/
def edgeOut (H : Fin 50000 → Fin 128 → EReal) (u v : IVec SIds 32) (W : SWe.Idx → EReal) (b : SB.Idx → EReal)
    (e : Fin 800000) (j : Fin 128) : EReal :=
  max (((∑ k : Fin 128, H (node u e) k * W (ix2 j (half0 k)))
        + ∑ k : Fin 128, H (node v e) k * W (ix2 j (half1 k)))
        + b (ix1 j)) 0

end Cert.Sage

end
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.LibCountScatter.lean ====
/-
  A counting scatter read at an entry.

  The host's scatter with integer addition as its body, of an [N] vector of ones into a [C] vector of zeros by an [N, 1]
  column of indices (the operand's one axis inserted and scattered to, the index vector on the indices' second axis),
  counts at entry k the positions n whose index word, read as a signed integer, is k; a position whose word is below 0
  or not below C is dropped. The fold adds 32-bit words, so the entry is that count as a word; when N is below 2^31 the
  word read back as a signed integer is the count itself.

  The road: the scatter is a left fold over the update positions of a step that adds the update to the entry it lands
  at. Words under addition are a commutative monoid, so the fold read at an entry is the starting entry plus the sum
  over the positions of: the update where the position lands at that entry, zero elsewhere. The positions, numbered in
  row-major order, are the indices of the [N] vector, and those are the numbers below N. For these dimension numbers
  position n lands at k exactly when its index word reads k. A sum of ones over the positions that do is their number,
  as a word; their number is at most N, below 2^31, so the word's signed reading is the number.
-/
import Idealize.ShloMosaic.PureOps.ShapeOps
import Idealize.ShloMosaic.Lib.ValueIdx
import Mathlib.Data.BitVec
import Mathlib.Algebra.BigOperators.Ring.Finset
import Mathlib.Algebra.BigOperators.Fin
import proofs.«427057_j9414568312948_3_alg».proof.Proof.LibScatterAddRows

noncomputable section

open scoped BigOperators

namespace Idealize.ShloMosaic.CountScatter

open Idealize.ShloMosaic Idealize.ShloMosaic.ValueIdx

/-- The accumulating fold read at an entry: the entry it started with plus the sum, over the listed update
    positions, of the update where it lands at that entry and zero elsewhere. -/
theorem foldl_addi_apply {s si u : Shape} {w v : ℕ} [DecidableEq s.Idx] (d : ScatterDims s si u) (idx : IVec si w)
    (upd : u.Idx → BitVec v) (l : List (Fin u.numel)) (r : s.Idx → BitVec v) (i : s.Idx) :
    (l.foldl (fun r n =>
        match d.resultIdx? (u.rowMajor.symm n) idx with
        | some i => fun i' => if i' = i then IntOp.addi (r i) (upd (u.rowMajor.symm n)) else r i'
        | none => r) r) i
      = r i + (l.map fun n =>
          if d.resultIdx? (u.rowMajor.symm n) idx = some i then upd (u.rowMajor.symm n) else 0).sum := by
  induction l generalizing r with
  | nil => simp
  | cons n l ih =>
    rw [List.foldl_cons, ih, List.map_cons, List.sum_cons, ← add_assoc]
    congr 1
    cases h : d.resultIdx? (u.rowMajor.symm n) idx with
    | none => simp
    | some j =>
      by_cases hij : i = j
      · subst hij
        simp [IntOp.addi]
      · have hji : ¬ j = i := fun e => hij e.symm
        simp [hij, hji]

/-- The accumulating scatter read at an entry: the operand's entry plus the sum, over the update's indices, of the
    update where it lands at that entry and zero elsewhere. -/
theorem scatter_addi_apply {s si u : Shape} {w v : ℕ} (d : ScatterDims s si u) (x : s.Idx → BitVec v)
    (idx : IVec si w) (upd : u.Idx → BitVec v) (i : s.Idx) :
    Host.scatter d IntOp.addi x idx upd i
      = x i + ∑ j : u.Idx, if d.resultIdx? j idx = some i then upd j else 0 := by
  calc Host.scatter d IntOp.addi x idx upd i
      = x i + ((List.finRange u.numel).map fun n =>
          if d.resultIdx? (u.rowMajor.symm n) idx = some i then upd (u.rowMajor.symm n) else 0).sum :=
        @foldl_addi_apply s si u w v _ d idx upd (List.finRange u.numel) x i
    _ = x i + ∑ j : u.Idx, if d.resultIdx? j idx = some i then upd j else 0 := by
        rw [← Fin.sum_univ_def]
        congr 1
        exact Fintype.sum_equiv u.rowMajor.symm _
          (fun j : u.Idx => if d.resultIdx? j idx = some i then upd j else 0) (fun _ => rfl)

/-- A natural number below 2^31, as a 32-bit word, reads back signed as itself. -/
theorem toInt_natCast_of_lt {c : ℕ} (hc : c < 2 ^ 31) : ((c : BitVec 32)).toInt = (c : ℤ) := by
  rw [BitVec.natCast_eq_ofNat, BitVec.toInt_eq_toNat_cond, BitVec.toNat_ofNat]
  have h1 : c % 2 ^ 32 = c := Nat.mod_eq_of_lt (by omega)
  rw [h1]
  split
  · rfl
  · omega

/-- The counting scatter's entry k as a word: the number of positions whose index word reads k. -/
theorem scatter_addi_ones_apply {C N w : ℕ}
    (wf : ScatterDims.WF ⟨1, ![C]⟩ ⟨2, ![N, 1]⟩ ⟨1, ![N]⟩ [] [0] [0] 1)
    (idx : IVec ⟨2, ![N, 1]⟩ w) (k : Fin C) :
    Host.scatter (⟨[], [0], [0], 1, wf⟩ : ScatterDims ⟨1, ![C]⟩ ⟨2, ![N, 1]⟩ ⟨1, ![N]⟩) IntOp.addi
        (fun _ => (0#32 : BitVec 32)) idx (fun _ => (1#32 : BitVec 32)) (ix1 k)
      = ((Finset.univ.filter fun n : Fin N => (idx (ix2 n (0 : Fin 1))).toInt = (k.val : ℤ)).card : BitVec 32) := by
  rw [scatter_addi_apply, ScatterAddRows.sum_idx1]
  simp only [ScatterAddRows.vec_resultIdx?_iff wf]
  rw [← Finset.sum_boole]
  exact zero_add _

/-- The count of the positions whose index word reads k, as a signed integer. -/
theorem scatter_addi_ones_toInt {C N : ℕ} (hN : N < 2 ^ 31)
    (d : ScatterDims ⟨1, ![C]⟩ ⟨2, ![N, 1]⟩ ⟨1, ![N]⟩)
    (hwin : d.updateWindowDims = []) (hins : d.insertedWindowDims = [0]) (hsd : d.scatterDimsToOperandDims = [0])
    (hivd : d.indexVectorDim = 1)
    (idx : IVec ⟨2, ![N, 1]⟩ 32) (k : Fin C) :
    (Host.scatter d IntOp.addi (fun _ => (0#32 : BitVec 32)) idx (fun _ => (1#32 : BitVec 32)) (ix1 k)).toInt
      = ((Finset.univ.filter fun n : Fin N => (idx (ix2 n (0 : Fin 1))).toInt = (k.val : ℤ)).card : ℤ) := by
  obtain ⟨uw, iw, sd, iv, wf⟩ := d
  dsimp only at hwin hins hsd hivd
  subst hwin hins hsd hivd
  rw [scatter_addi_ones_apply wf idx k]
  refine toInt_natCast_of_lt (lt_of_le_of_lt ?_ hN)
  exact (Finset.card_le_univ _).trans (Fintype.card_fin N).le

end Idealize.ShloMosaic.CountScatter

end
-- ==== Proof.LibGatherRows.lean ====
/-
  A gather of whole rows of a table, read at an index.

  A table `T : [N, C]` gathered at a column `idx : [R, 1]` of start indices with offset_dims = [1],
  collapsed_slice_dims = [0], start_index_map = [0], index_vector_dim = 1 and slice sizes [1, C] has the result `[R, C]`
  whose row `e` is a row of the table. Read at `(e, j)` it is the table at `(r, j)`, where `r` is the start index
  `idx[e, 0]` read as a signed integer and clamped into `[0, N − 1]`: the one start-indexed axis is collapsed, so its
  slice has extent one and the clamp's upper end is `N − 1`; the column axis is the one offset axis, not start-indexed, so
  its slice starts at column 0 and the result's column coordinate is the table's.

  Stated for any dimension-numbers record with those field values (`gather_rows`), and for the record built from the
  extents and the well-formedness witness alone (`rowDims`, `gather_rowDims_apply`).
-/
import Idealize.ShloMosaic.PureOps.ShapeOps
import Idealize.ShloMosaic.Lib.ValueIdx

namespace Idealize.ShloMosaic.GatherRows

open Idealize.ShloMosaic Idealize.ShloMosaic.ValueIdx

/-- A list that is one entry long has that entry at every position it has. -/
theorem getElem_of_eq_singleton {β : Type} (l : List β) (b : β) (n : Nat) (h : n < l.length) (hl : l = [b]) : l[n] = b := by
  subst hl
  have : n = 0 := by simpa using h
  subst this; rfl

/-- THE ROW GATHER READ AT `(e, j)`. For dimension numbers over a table `[N, C]`, start indices `[R, 1]` and result
    `[R, C]` with offset axis 1, collapsed axis 0, no batching axes, start index map `[0]` and the index vector on axis 1
    (`hoff` … `hivd`: the record's field values; its conditions give the slice sizes `[1, C]`): the table at row
    `idx[e, 0]`, read signed and clamped into `[0, N − 1]`, column `j`. -/
theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (T : (⟨2, ![N, C]⟩ : Shape).Idx → α) (idx : IVec ⟨2, ![R, 1]⟩ w) (e : Fin R) (j : Fin C) (hN : 0 < N) :
    Host.gather d T idx (ix2 e j) = T (ix2 ⟨min (idx (ix2 e 0)).toInt.toNat (N - 1), by omega⟩ j) := by
  unfold Host.gather
  congr 1
  funext a
  apply Fin.ext
  have hb : ∀ a, a ∉ d.operandBatchingDims := fun a => by rw [hob]; exact List.not_mem_nil
  match a with
  | ⟨0, _⟩ =>
    -- the row axis: start-indexed and collapsed, so the coordinate is the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 e 0)).toInt.toNat (N - 1)
    rw [hsl]
    congr 3
    congr 1
    -- the start-indices index of result index (e, j), component 0, is (e, 0)
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton d.batchDims 0 _ _ hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: the one offset axis, not start-indexed, so the coordinate is the result's column
    have hk : (1 : Fin 2) ∈ d.sKept := by rw [GatherDims.mem_sKept, hcoll]; exact ⟨by simp, hb 1⟩
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1)]
    unfold GatherDims.start GatherDims.offCoord
    rw [dif_neg hm, dif_pos hk]
    simp only [Nat.add_zero, Nat.zero_add]
    rw [getElem_of_eq_singleton d.offsetDims 1 _ _ hoff]
    rfl

/-- Those dimension numbers for a table `[N, C]`, start indices `[R, 1]` and result `[R, C]`; their conditions `wf` are
    decided on literal extents. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather by `rowDims` read at `(e, j)`. -/
theorem gather_rowDims_apply {α : Type} {N R C w : Nat} (hN : 0 < N)
    (wf : GatherDims.WF ⟨2, ![N, C]⟩ ⟨2, ![R, 1]⟩ ⟨2, ![R, C]⟩ [1] [0] [] [0] [] 1 ![1, C])
    (T : (⟨2, ![N, C]⟩ : Shape).Idx → α) (idx : IVec ⟨2, ![R, 1]⟩ w) (e : Fin R) (j : Fin C) :
    Host.gather (rowDims N R C wf) T idx (ix2 e j) = T (ix2 ⟨min (idx (ix2 e 0)).toInt.toNat (N - 1), by omega⟩ j) :=
  gather_rows (rowDims N R C wf) rfl rfl rfl rfl rfl T idx e j hN

end Idealize.ShloMosaic.GatherRows
-- ==== Proof.NodeHostTerms.lean ====
/-
  The eight arrays the node region reads, as terms of the launch memory.

  Before the node region is entered, four stretches of host operations run. They write, from the arguments alone:
  the source node's feature row of every edge (a gather of the node features by the source words); that array and the
  edge features, each summed by rows into the node its edge's target word names, starting from zeros; the number of
  edges whose target word names each node, as integer words, and from it the column of reciprocal in-degrees, zero where
  the count is not positive; the three 128-row blocks of the transposed weight; and the bias as a one-row matrix.
  The node features themselves are passed through untouched.

  Each array is named here by a definition at any float instance, and the contents of the region's window arrays at its
  entry are shown to be these definitions applied to the launch memory's arguments: a buffer that a stretch does not
  write keeps what it held, and a buffer that an operation writes holds that operation's function of its operands'
  buffers.
-/
import proofs.«427057_j9414568312948_3_alg».proof.Proof.Gen.KernelIdeal.Frame

set_option maxRecDepth 16384

noncomputable section

namespace Cert.KernelIdeal.NodeHost

open Cert.KernelIdeal Cert.KernelIdeal.Gen
open Idealize.ShloMosaic Idealize.ShloMosaic.TcCoe Idealize.SL.Sem

section Terms
variable {F : FTy → Type} [FloatOps F]

/-- A vector of 800000 endpoint words laid out as an [800000, 1] column. -/
def idCol (u : IVec S800000 32) : IVec S800000x1 32 :=
  broadcastInDim S800000x1 ![0] bcast_S800000_S800000x1_0 u

/-- The [50000, 128] array of zeros a row sum starts from. -/
def zeroRows : FVec F S50000x128 .f32 :=
  broadcastInDim S50000x128 ![] bcast_S_S50000x128 (constant S_ .f32 0x00000000#32)

/-- Row n is the feature row of the node that edge n's source word fetches. -/
def srcRows (x : FVec F S50000x128 .f32) (u : IVec S800000 32) : FVec F S800000x128 .f32 :=
  Host.gather gather_S50000x128_S800000x1_S800000x128_1_0_n_n_0_1_1128 x (idCol u)

/-- The per-edge rows `upd`, each added into the row its edge's target word names, from zeros. -/
def sumInto (v : IVec S800000 32) (upd : FVec F S800000x128 .f32) : FVec F S50000x128 .f32 :=
  Host.scatterAdd scatter_S50000x128_S800000x1_S800000x128_1_0_0_1 zeroRows (idCol v) upd

/-- For each node, the number of edges whose target word names it, counted in 32-bit words: ones added into zeros. -/
def counts (v : IVec S800000 32) : IVec S50000 32 :=
  Host.scatter scatter_S50000_S800000x1_S800000_n_0_0_1 IntOp.addi
    (broadcastInDim S50000 ![] bcast_S_S50000 (constantI S_ 32 0#32)) (idCol v)
    (broadcastInDim S800000 ![] bcast_S_S800000 (constantI S_ 32 1#32))

/-- For each node, whether its count is positive. -/
def posMask (v : IVec S800000 32) : IVec S50000 1 :=
  cmpi .sgt (counts v) (broadcastInDim S50000 ![] bcast_S_S50000 (constantI S_ 32 0#32))

/-- For each node, one divided by the larger of its count and one. -/
def recip (v : IVec S800000 32) : FVec F S50000 .f32 :=
  Host.divf (broadcastInDim S50000 ![] bcast_S_S50000 (constant S_ .f32 0x3F800000#32))
    (maximumf (sitofp .f32 (counts v)) (broadcastInDim S50000 ![] bcast_S_S50000 (constant S_ .f32 0x3F800000#32)))

/-- For each node: that reciprocal where its count is positive, zero elsewhere. -/
def invDeg (v : IVec S800000 32) : FVec F S50000 .f32 :=
  select (posMask v) (recip (F := F) v) (broadcastInDim S50000 ![] bcast_S_S50000 (constant S_ .f32 0x00000000#32))

/-- The same laid out as a [50000, 1] column. -/
def invCol (v : IVec S800000 32) : FVec F S50000x1 .f32 :=
  broadcastInDim S50000x1 ![0] bcast_S50000_S50000x1_0 (invDeg (F := F) v)

/-- Rows o … o + 127 of the transposed [128, 384] weight, narrowed to bf16. -/
def wBlock (o : ℕ) (h : S384x128.Slices ![o, 0] S128x128) (W : FVec F S128x384 .f32) : FVec F S128x128 .bf16 :=
  truncf .bf16 (extractStridedSlice S128x128 ![o, 0] (transpose S384x128 [1, 0] W transposes_S128x384_S384x128_1_0) h)
    bitsLt_bf16_f32

/-- The bias as a one-row matrix. -/
def biasRow (b : FVec F S128 .f32) : FVec F S1x128 .f32 :=
  shapeCast S1x128 b shapeCasts_S128_S1x128

variable (m : (ℓ : Loc nD τ sig) → Buf (Elt F) ℓ) (ρ : Dev nD → PrngReg)

/-- No stretch writes the node features. -/
theorem x_term (c : Dev nD) :
    V4 (F := F) m ρ c (Pipeline.arrRef spec0 0) = m ((c.tc : Thread nD τ).loc main_arg0) := by
  show StableHlo.after hostOps0_3 (StableHlo.after hostOps0_2 (StableHlo.after hostOps0_1
    (StableHlo.after hostOps0 (W0 m ρ c)))) (Proc.devRef .tc main_arg0) = _
  simp only [hostOps0, hostOps0_1, hostOps0_2, hostOps0_3]
  after_results

/-- The second window's array: the source rows summed into their targets. -/
theorem sn_term (c : Dev nD) :
    V4 (F := F) m ρ c (Pipeline.arrRef spec0 1)
      = sumInto (m ((c.tc : Thread nD τ).loc main_arg3))
          (srcRows (m ((c.tc : Thread nD τ).loc main_arg0)) (m ((c.tc : Thread nD τ).loc main_arg2))) := by
  show StableHlo.after hostOps0_3 (StableHlo.after hostOps0_2 (StableHlo.after hostOps0_1
    (StableHlo.after hostOps0 (W0 m ρ c)))) (Proc.devRef .tc main_v3) = _
  simp only [hostOps0, hostOps0_1, hostOps0_2, hostOps0_3]
  after_results
  rfl

/-- The third window's array: the edge rows summed into their targets. -/
theorem se_term (c : Dev nD) :
    V4 (F := F) m ρ c (Pipeline.arrRef spec0 2)
      = sumInto (m ((c.tc : Thread nD τ).loc main_arg3)) (m ((c.tc : Thread nD τ).loc main_arg1)) := by
  show StableHlo.after hostOps0_3 (StableHlo.after hostOps0_2 (StableHlo.after hostOps0_1
    (StableHlo.after hostOps0 (W0 m ρ c)))) (Proc.devRef .tc main_v6) = _
  simp only [hostOps0, hostOps0_1, hostOps0_2, hostOps0_3]
  after_results
  rfl

/-! The reciprocal in-degrees are read stretch by stretch, from any contents `X` a stretch starts at: the second stretch
    leaves the positivity mask, the reciprocals and a zero scalar, each a function of the target words alone; the third
    selects between the reciprocals and the zero by the mask; the fourth lays the result out as a column. -/

section Stretches
variable (X : Valuation τ sig (Elt F))

theorem s0_arg3 : StableHlo.after hostOps0 X (Proc.devRef .tc main_arg3) = X (Proc.devRef .tc main_arg3) := by
  simp only [hostOps0]
  after_results

theorem s1_v13 : StableHlo.after hostOps0_1 X (Proc.devRef .tc main_v13) = posMask (X (Proc.devRef .tc main_arg3)) := by
  simp only [hostOps0_1]
  after_results
  rfl

theorem s1_v17 :
    StableHlo.after hostOps0_1 X (Proc.devRef .tc main_v17) = recip (F := F) (X (Proc.devRef .tc main_arg3)) := by
  simp only [hostOps0_1]
  after_results
  rfl

theorem s1_cst5 : StableHlo.after hostOps0_1 X (Proc.devRef .tc main_cst_5) = constant S_ .f32 0x00000000#32 := by
  simp only [hostOps0_1]
  after_results

theorem s2_v18 : StableHlo.after hostOps0_2 X (Proc.devRef .tc main_v18)
    = select (X (Proc.devRef .tc main_v13)) (X (Proc.devRef .tc main_v17))
        (broadcastInDim S50000 ![] bcast_S_S50000 (X (Proc.devRef .tc main_cst_5))) := by
  simp only [hostOps0_2]
  after_results
  rfl

theorem s3_v19 : StableHlo.after hostOps0_3 X (Proc.devRef .tc main_v19)
    = broadcastInDim S50000x1 ![0] bcast_S50000_S50000x1_0 (X (Proc.devRef .tc main_v18)) := by
  simp only [hostOps0_3]
  after_results

end Stretches

/-- The fourth window's array: the column of reciprocal in-degrees. -/
theorem inv_term (c : Dev nD) :
    V4 (F := F) m ρ c (Pipeline.arrRef spec0 3) = invCol (F := F) (m ((c.tc : Thread nD τ).loc main_arg3)) := by
  show StableHlo.after hostOps0_3 (StableHlo.after hostOps0_2 (StableHlo.after hostOps0_1
    (StableHlo.after hostOps0 (W0 m ρ c)))) (Proc.devRef .tc main_v19) = _
  rw [s3_v19, s2_v18, s1_v13, s1_v17, s1_cst5, s0_arg3]
  rfl

/-- The fifth, sixth and seventh windows' arrays: the three blocks of the transposed weight. -/
theorem w1_term (c : Dev nD) :
    V4 (F := F) m ρ c (Pipeline.arrRef spec0 4)
      = wBlock 0 slices_S384x128_S128x128_0_0 (m ((c.tc : Thread nD τ).loc main_arg4)) := by
  show StableHlo.after hostOps0_3 (StableHlo.after hostOps0_2 (StableHlo.after hostOps0_1
    (StableHlo.after hostOps0 (W0 m ρ c)))) (Proc.devRef .tc main_v22) = _
  simp only [hostOps0, hostOps0_1, hostOps0_2, hostOps0_3]
  after_results
  rfl
theorem w2_term (c : Dev nD) :
    V4 (F := F) m ρ c (Pipeline.arrRef spec0 5)
      = wBlock 128 slices_S384x128_S128x128_128_0 (m ((c.tc : Thread nD τ).loc main_arg4)) := by
  show StableHlo.after hostOps0_3 (StableHlo.after hostOps0_2 (StableHlo.after hostOps0_1
    (StableHlo.after hostOps0 (W0 m ρ c)))) (Proc.devRef .tc main_v24) = _
  simp only [hostOps0, hostOps0_1, hostOps0_2, hostOps0_3]
  after_results
  rfl
theorem w3_term (c : Dev nD) :
    V4 (F := F) m ρ c (Pipeline.arrRef spec0 6)
      = wBlock 256 slices_S384x128_S128x128_256_0 (m ((c.tc : Thread nD τ).loc main_arg4)) := by
  show StableHlo.after hostOps0_3 (StableHlo.after hostOps0_2 (StableHlo.after hostOps0_1
    (StableHlo.after hostOps0 (W0 m ρ c)))) (Proc.devRef .tc main_v26) = _
  simp only [hostOps0, hostOps0_1, hostOps0_2, hostOps0_3]
  after_results
  rfl

/-- The eighth window's array: the bias row. -/
theorem b_term (c : Dev nD) :
    V4 (F := F) m ρ c (Pipeline.arrRef spec0 7) = biasRow (m ((c.tc : Thread nD τ).loc main_arg5)) := by
  show StableHlo.after hostOps0_3 (StableHlo.after hostOps0_2 (StableHlo.after hostOps0_1
    (StableHlo.after hostOps0 (W0 m ρ c)))) (Proc.devRef .tc main_v27) = _
  simp only [hostOps0, hostOps0_1, hostOps0_2, hostOps0_3]
  after_results
  rfl

end Terms

end Cert.KernelIdeal.NodeHost

end
-- ==== Proof.NodeHost.lean ====
/-
  The eight arrays the node region reads, at an index, as formulas of the launch memory.

  The arrays are the composed host operations named in the module of terms. Read at an index at the ideal values:
  a vector laid out as a column reads the vector; a gather of whole rows reads the row its start word names, the word
  read signed and clamped into the table; an accumulating scatter of rows into zeros reads the sum of the rows whose
  index word names the entry's row, a word that names no row adding nowhere; the counting scatter reads the number of
  such rows, and the reciprocal of that count where it is positive; a block cut from the transposed weight reads the
  weight with its two coordinates exchanged and the block's offset added; the reshaped bias reads the bias.
-/
import proofs.«427057_j9414568312948_3_alg».proof.Proof.Gen.KernelIdeal.Frame
import proofs.«427057_j9414568312948_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«427057_j9414568312948_3_alg».proof.Proof.LibCountScatter
import proofs.«427057_j9414568312948_3_alg».proof.Proof.LibScatterAddRows
import proofs.«427057_j9414568312948_3_alg».proof.Proof.LibGatherRows
import proofs.«427057_j9414568312948_3_alg».proof.Proof.NodeHostTerms
set_option maxRecDepth 16384

noncomputable section

open scoped BigOperators

namespace Cert.KernelIdeal.NodeHost

open Cert.KernelIdeal Cert.KernelIdeal.Gen Cert.Sage
open Idealize.ShloMosaic Idealize.ShloMosaic.TcCoe Idealize.ShloMosaic.ValueIdx Idealize.SL.Sem

/-! ## The layout operations at an index -/

/-- A vector laid out as a column reads, at (p, 0), the vector at p. -/
theorem col_apply {α : Type} {n : ℕ} (h : (⟨1, ![n]⟩ : Shape).BroadcastsInDim ⟨2, ![n, 1]⟩ ![0])
    (x : (⟨1, ![n]⟩ : Shape).Idx → α) (p : Fin n) :
    broadcastInDim ⟨2, ![n, 1]⟩ ![0] h x (ix2 p (0 : Fin 1)) = x (ix1 p) :=
  broadcastInDim_apply _ h x _ (ix1 p) fun a => by
    match a with
    | ⟨0, _⟩ =>
      show p.val = if n = 1 then 0 else p.val
      split
      · have := p.isLt; omega
      · rfl

/-- The column of endpoint words at (n, 0) is the word of edge n. -/
theorem idCol_apply (u : IVec S800000 32) (n : Fin 800000) : idCol u (ix2 n (0 : Fin 1)) = u (ix1 n) :=
  col_apply _ u n

/-- The array of zeros is zero at every index. -/
theorem zeroRows_apply (j : S50000x128.Idx) : zeroRows (F := Ideal) j = 0 := by
  unfold zeroRows
  rw [broadcastInDim_scalar_apply, constant_apply, Ideal.ofBits_zero_f32]

/-! ## The gathered source rows and the row sums at an index -/

/-- Row n of the gathered array is the feature row of the node edge n's source word fetches: the word read signed and
    clamped into the node range. -/
theorem srcRows_apply (x : FVec Ideal S50000x128 .f32) (u : IVec S800000 32) (n : Fin 800000) (k : Fin 128) :
    srcRows x u (ix2 n k) = x (ix2 (node u n) k) := by
  unfold srcRows
  refine (GatherRows.gather_rows gather_S50000x128_S800000x1_S800000x128_1_0_n_n_0_1_1128 rfl rfl rfl rfl rfl
    x (idCol u) n k (by decide)).trans ?_
  refine congrArg (fun r => x (ix2 r k)) (Fin.ext ?_)
  show min (idCol u (ix2 n (0 : Fin 1))).toInt.toNat (50000 - 1) = min (u (ix1 n)).toInt.toNat (50000 - 1)
  rw [idCol_apply]

/-- The row scatter's dimension numbers, written out: the update's second axis the window, the operand's first axis
    inserted and scattered to, the index vector on the indices' second axis. -/
theorem rowsRecord : scatter_S50000x128_S800000x1_S800000x128_1_0_0_1
    = ⟨[1], [0], [0], 1, scatter_S50000x128_S800000x1_S800000x128_1_0_0_1_wf⟩ := rfl

/-- The row scatter at (i, k): the operand's entry plus the sum, over the update rows whose index word reads i, of the
    row's entry k. -/
theorem scatterRows_apply (x : FVec Ideal S50000x128 .f32) (idx : IVec S800000x1 32) (upd : FVec Ideal S800000x128 .f32)
    (i : Fin 50000) (k : Fin 128) :
    Ideal.hostScatterAdd scatter_S50000x128_S800000x1_S800000x128_1_0_0_1 x idx upd (ix2 i k)
      = x (ix2 i k) + ∑ n : Fin 800000, if (idx (ix2 n (0 : Fin 1))).toInt = (i.val : ℤ) then upd (ix2 n k) else 0 := by
  rw [rowsRecord]
  exact ScatterAddRows.scatterAdd_rows_apply _ x idx upd i k

/-- At the ideal values the host's accumulating scatter is the exact one. -/
theorem scatterAdd_ideal {s si u : Shape} {w : Nat} (d : ScatterDims s si u) (x : FVec Ideal s .f32) (idx : IVec si w)
    (upd : FVec Ideal u .f32) :
    Host.scatterAdd (F := Ideal) (φ := .f32) d x idx upd = Ideal.hostScatterAdd d x idx upd := rfl

/-- The summed rows are the accumulating row scatter of the update rows into zeros by the column of target words. -/
theorem sumInto_def (v : IVec S800000 32) (upd : FVec Ideal S800000x128 .f32) :
    sumInto (F := Ideal) v upd
      = Host.scatterAdd (F := Ideal) (φ := .f32) scatter_S50000x128_S800000x1_S800000x128_1_0_0_1 zeroRows (idCol v) upd := rfl

/-- Entry (i, k) of the rows summed into their targets: the sum, over the edges whose target word reads i, of the edge's
    entry k. The sum starts from zero, and an edge whose target word is no node's number adds nowhere. -/
theorem sumInto_apply (v : IVec S800000 32) (upd : FVec Ideal S800000x128 .f32) (i : Fin 50000) (k : Fin 128) :
    sumInto v upd (ix2 i k) = ∑ n : Fin 800000, if (v (ix1 n)).toInt = (i.val : ℤ) then upd (ix2 n k) else 0 := by
  rw [sumInto_def, scatterAdd_ideal, scatterRows_apply, zeroRows_apply, zero_add]
  exact Finset.sum_congr rfl fun n _ => by rw [idCol_apply]

/-! ## The in-degree and its reciprocal at an index -/

/-- A scalar integer constant broadcast to a vector is that word everywhere. -/
theorem bcastI_eq {T : Shape} (h : S_.BroadcastsInDim T ![]) (b : BitVec 32) :
    (broadcastInDim T ![] h (constantI S_ 32 b) : IVec T 32) = fun _ => b :=
  funext fun j => broadcastInDim_scalar_apply h _ j

/-- A scalar integer constant broadcast to a vector reads that word at every index … -/
theorem bcastI_apply {T : Shape} (h : S_.BroadcastsInDim T ![]) (b : BitVec 32) (j : T.Idx) :
    (broadcastInDim T ![] h (constantI S_ 32 b) : IVec T 32) j = b :=
  broadcastInDim_scalar_apply h _ j

/-- … and a scalar float constant the extended real its word encodes. -/
theorem bcastF_apply {T : Shape} (h : S_.BroadcastsInDim T ![]) (b : BitVec 32) (j : T.Idx) :
    (broadcastInDim T ![] h (constant (F := Ideal) S_ .f32 b) : FVec Ideal T .f32) j = Ideal.ofBits .f32 b :=
  broadcastInDim_scalar_apply h _ j

/-- The count at node i, read as a signed integer, is the number of edges pointing at i: 800000 ones cannot wrap a
    32-bit word. -/
theorem counts_toInt (v : IVec S800000 32) (i : Fin 50000) : (counts v (ix1 i)).toInt = (deg v i : ℤ) := by
  unfold counts
  rw [bcastI_eq, bcastI_eq, CountScatter.scatter_addi_ones_toInt (by norm_num)
    scatter_S50000_S800000x1_S800000_n_0_0_1 rfl rfl rfl rfl (idCol v) i]
  unfold deg
  simp only [idCol_apply]

/-- A signed comparison "greater than the zero word" is the bit of "the word reads positive". -/
theorem cmpi_sgt_zero (a : BitVec 32) : IntOp.cmpi .sgt a 0#32 = if 0 < a.toInt then 1#1 else 0#1 := by
  show BitVec.ofBool ((0#32 : BitVec 32).slt a) = _
  unfold BitVec.slt
  rw [BitVec.toInt_zero]
  by_cases h : 0 < a.toInt
  · simp [h]
  · simp [h]

/-- Over any vector of counts, the selected reciprocal at node i: where the count reads positive, one divided by the
    larger of the count (as a real) and one; zero elsewhere. The constants' words are one and zero. -/
theorem recipSel_apply (cnt : IVec S50000 32) (i : Fin 50000) :
    select (cmpi .sgt cnt (broadcastInDim S50000 ![] bcast_S_S50000 (constantI S_ 32 0#32)))
        (Host.divf (F := Ideal) (broadcastInDim S50000 ![] bcast_S_S50000 (constant S_ .f32 0x3F800000#32))
          (maximumf (sitofp .f32 cnt) (broadcastInDim S50000 ![] bcast_S_S50000 (constant S_ .f32 0x3F800000#32))))
        (broadcastInDim S50000 ![] bcast_S_S50000 (constant S_ .f32 0x00000000#32)) (ix1 i)
      = if 0 < (cnt (ix1 i)).toInt then Ideal.div 1 (max (((cnt (ix1 i)).toInt : ℝ) : EReal) 1) else 0 := by
  show Scalar.select (IntOp.cmpi .sgt (cnt (ix1 i)) (broadcastInDim S50000 ![] bcast_S_S50000 (constantI S_ 32 0#32) (ix1 i)))
      (Ideal.div (broadcastInDim S50000 ![] bcast_S_S50000 (constant (F := Ideal) S_ .f32 0x3F800000#32) (ix1 i))
        (max (((cnt (ix1 i)).toInt : ℝ) : EReal)
          (broadcastInDim S50000 ![] bcast_S_S50000 (constant (F := Ideal) S_ .f32 0x3F800000#32) (ix1 i))))
      (broadcastInDim S50000 ![] bcast_S_S50000 (constant (F := Ideal) S_ .f32 0x00000000#32) (ix1 i)) = _
  rw [bcastI_apply, bcastF_apply, bcastF_apply, Ideal.ofBits_one_f32, Ideal.ofBits_zero_f32, cmpi_sgt_zero]
  by_cases h : 0 < (cnt (ix1 i)).toInt
  · rw [if_pos h, if_pos h, select_one]
  · rw [if_neg h, if_neg h, select_zero]

/-- The reciprocal in-degrees are that selection over the counts. -/
theorem invDeg_def (v : IVec S800000 32) :
    invDeg (F := Ideal) v
      = select (cmpi .sgt (counts v) (broadcastInDim S50000 ![] bcast_S_S50000 (constantI S_ 32 0#32)))
          (Host.divf (F := Ideal) (broadcastInDim S50000 ![] bcast_S_S50000 (constant S_ .f32 0x3F800000#32))
            (maximumf (sitofp .f32 (counts v)) (broadcastInDim S50000 ![] bcast_S_S50000 (constant S_ .f32 0x3F800000#32))))
          (broadcastInDim S50000 ![] bcast_S_S50000 (constant S_ .f32 0x00000000#32)) := rfl

/-- The reciprocal in-degree at node i: 1/d for a node with d > 0 incoming edges (there the larger of d and one is d, and
    d is a real that is not zero), zero for a node with none. -/
theorem invDeg_apply (v : IVec S800000 32) (i : Fin 50000) :
    invDeg (F := Ideal) v (ix1 i)
      = if 0 < deg v i then ((((1 : ℝ) / (deg v i : ℝ) : ℝ)) : EReal) else 0 := by
  rw [invDeg_def, recipSel_apply, counts_toInt, Int.cast_natCast]
  by_cases hd : 0 < deg v i
  · have hz : (0 : ℤ) < (deg v i : ℤ) := by exact_mod_cast hd
    have h1 : (1 : EReal) ≤ ((deg v i : ℝ) : EReal) := by
      rw [← EReal.coe_one]
      exact EReal.coe_le_coe_iff.mpr (by exact_mod_cast hd)
    have hne : ((deg v i : ℕ) : ℝ) ≠ 0 := by
      have : (0 : ℝ) < (deg v i : ℝ) := by exact_mod_cast hd
      exact ne_of_gt this
    rw [if_pos hz, if_pos hd, max_eq_left h1, Ideal.div_coe hne, one_mul]
  · have hz : ¬ (0 : ℤ) < (deg v i : ℤ) := by exact_mod_cast hd
    rw [if_neg hz, if_neg hd]

/-- The column of reciprocal in-degrees at (i, 0). -/
theorem invCol_apply (v : IVec S800000 32) (i : Fin 50000) :
    invCol (F := Ideal) v (ix2 i (0 : Fin 1)) = invDeg (F := Ideal) v (ix1 i) :=
  col_apply _ _ i

/-! ## The weight blocks and the bias at an index -/

/-- Entry (k, j) of the block cut from row o of the transposed weight: the weight at row j, column r = o + k. Narrowing
    to bf16 is the identity on extended reals. -/
theorem wBlock_apply (o : ℕ) (h : S384x128.Slices ![o, 0] S128x128) (W : FVec Ideal S128x384 .f32) (k j : Fin 128)
    (r : Fin 384) (hr : r.val = o + k.val) : wBlock o h W (ix2 k j) = W (ix2 j r) := by
  show extractStridedSlice S128x128 ![o, 0] (transpose S384x128 [1, 0] W transposes_S128x384_S384x128_1_0) h (ix2 k j) = _
  exact (slice2_axis0_apply o _ h k j r hr).trans (transpose_ix2_apply W _ r j)

/-- The bias row at (0, j) is the bias at j. -/
theorem biasRow_apply (b : FVec Ideal S128 .f32) (j : Fin 128) : biasRow b (ix2 (0 : Fin 1) j) = b (ix1 j) :=
  shapeCast_a_1a_apply b _ 0 j

variable (m : (ℓ : Loc nD τ sig) → Buf (Elt Ideal) ℓ) (ρ : Dev nD → PrngReg)

/-- The node region's first array is the node features as launched. -/
theorem x_eq (c : Dev nD) : V4 (F := Ideal) m ρ c (Pipeline.arrRef spec0 0) = (m ((c.tc : Thread nD τ).loc main_arg0)) :=
  x_term m ρ c

/-- Its second array at (i, k): the sum over the edges into node i of the source node's feature k. -/
theorem sn_apply (c : Dev nD) (i : Fin 50000) (k : Fin 128) :
    V4 (F := Ideal) m ρ c (Pipeline.arrRef spec0 1) (ix2 i k)
      = inSum (m ((c.tc : Thread nD τ).loc main_arg3)) (fun n => (m ((c.tc : Thread nD τ).loc main_arg0)) (ix2 (node (m ((c.tc : Thread nD τ).loc main_arg2)) n) k)) i := by
  refine (congrFun (sn_term m ρ c) (ix2 i k)).trans ?_
  refine (sumInto_apply _ _ i k).trans ?_
  unfold inSum
  exact Finset.sum_congr rfl fun n _ => by rw [srcRows_apply]

/-- Its third array at (i, k): the sum over the edges into node i of the edge's feature k. -/
theorem se_apply (c : Dev nD) (i : Fin 50000) (k : Fin 128) :
    V4 (F := Ideal) m ρ c (Pipeline.arrRef spec0 2) (ix2 i k)
      = inSum (m ((c.tc : Thread nD τ).loc main_arg3)) (fun n => (m ((c.tc : Thread nD τ).loc main_arg1)) (ix2 n k)) i := by
  refine (congrFun (se_term m ρ c) (ix2 i k)).trans ?_
  refine (sumInto_apply _ _ i k).trans ?_
  unfold inSum
  exact Finset.sum_congr rfl fun n _ => rfl

/-- Its fourth array, a column: the reciprocal of node i's in-degree, zero for a node with no incoming edge. -/
theorem inv_apply (c : Dev nD) (i : Fin 50000) :
    V4 (F := Ideal) m ρ c (Pipeline.arrRef spec0 3) (ix2 i 0)
      = if 0 < deg (m ((c.tc : Thread nD τ).loc main_arg3)) i then ((((1 : ℝ) / (deg (m ((c.tc : Thread nD τ).loc main_arg3)) i : ℝ) : ℝ)) : EReal) else 0 := by
  refine (congrFun (inv_term m ρ c) (ix2 i 0)).trans ?_
  exact (invCol_apply _ i).trans (invDeg_apply _ i)

/-- The three weight blocks at (k, j): the 128 x 384 weight at row j, column k of the block. -/
theorem w1_apply (c : Dev nD) (k j : Fin 128) :
    V4 (F := Ideal) m ρ c (Pipeline.arrRef spec0 4) (ix2 k j) = (m ((c.tc : Thread nD τ).loc main_arg4)) (ix2 j (col0 k)) := by
  refine (congrFun (w1_term m ρ c) (ix2 k j)).trans ?_
  exact wBlock_apply 0 _ _ k j (col0 k) (Nat.zero_add _).symm
theorem w2_apply (c : Dev nD) (k j : Fin 128) :
    V4 (F := Ideal) m ρ c (Pipeline.arrRef spec0 5) (ix2 k j) = (m ((c.tc : Thread nD τ).loc main_arg4)) (ix2 j (col1 k)) := by
  refine (congrFun (w2_term m ρ c) (ix2 k j)).trans ?_
  exact wBlock_apply 128 _ _ k j (col1 k) rfl
theorem w3_apply (c : Dev nD) (k j : Fin 128) :
    V4 (F := Ideal) m ρ c (Pipeline.arrRef spec0 6) (ix2 k j) = (m ((c.tc : Thread nD τ).loc main_arg4)) (ix2 j (col2 k)) := by
  refine (congrFun (w3_term m ρ c) (ix2 k j)).trans ?_
  exact wBlock_apply 256 _ _ k j (col2 k) rfl

/-- The bias row at (0, j). -/
theorem b_apply (c : Dev nD) (j : Fin 128) :
    V4 (F := Ideal) m ρ c (Pipeline.arrRef spec0 7) (ix2 0 j) = (m ((c.tc : Thread nD τ).loc main_arg5)) (ix1 j) := by
  refine (congrFun (b_term m ρ c) (ix2 0 j)).trans ?_
  exact biasRow_apply _ j

end Cert.KernelIdeal.NodeHost

end
-- ==== Proof.EdgeHost.lean ====
import proofs.«427057_j9414568312948_3_alg».proof.Proof.Gen.KernelIdeal.Frame
import proofs.«427057_j9414568312948_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import proofs.«427057_j9414568312948_3_alg».proof.Proof.LibGatherRows
set_option maxRecDepth 16384

noncomputable section

open scoped BigOperators

namespace Cert.KernelIdeal.EdgeHost

open Cert.KernelIdeal Cert.KernelIdeal.Gen Cert.Sage
open Idealize.ShloMosaic Idealize.ShloMosaic.TcCoe Idealize.ShloMosaic.ValueIdx Idealize.SL.Sem

variable (m : (ℓ : Loc nD τ sig) → Buf (Elt Ideal) ℓ) (ρ : Dev nD → PrngReg)

/-- No operation of a stretch writes the buffer: each operation's result buffer is another reference. -/
local macro "not_written" : tactic =>
  `(tactic| (refine List.forall_iff_forall_mem.mp ?_
             simp only [hostOps0, hostOps0_1, hostOps0_2, hostOps0_3, hostOps1, hostOps1_1, hostOps1_2, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## The arguments the stretch reads are as launched

The two endpoint arrays, the edge weight and the edge bias are no window array of the node region and no operation
before it writes them: after the node region each still holds its launch contents. -/

theorem W5_main_arg2 (c : Dev nD) : W5 (F := Ideal) m ρ c (Proc.devRef .tc main_arg2) = m ((c : Thread nD τ).loc main_arg2) :=
  calc W5 (F := Ideal) m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (by not_written)
    _ = W2 m ρ c (Proc.devRef .tc main_arg2) := StableHlo.after_of_forall_not_mem (b := Proc.devRef .tc main_arg2) _ _ (by not_written)
    _ = W1 m ρ c (Proc.devRef .tc main_arg2) := StableHlo.after_of_forall_not_mem (b := Proc.devRef .tc main_arg2) _ _ (by not_written)
    _ = W0 m ρ c (Proc.devRef .tc main_arg2) := StableHlo.after_of_forall_not_mem (b := Proc.devRef .tc main_arg2) _ _ (by not_written)
    _ = m ((c : Thread nD τ).loc main_arg2) := rfl

theorem W5_main_arg3 (c : Dev nD) : W5 (F := Ideal) m ρ c (Proc.devRef .tc main_arg3) = m ((c : Thread nD τ).loc main_arg3) :=
  calc W5 (F := Ideal) m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (by not_written)
    _ = W2 m ρ c (Proc.devRef .tc main_arg3) := StableHlo.after_of_forall_not_mem (b := Proc.devRef .tc main_arg3) _ _ (by not_written)
    _ = W1 m ρ c (Proc.devRef .tc main_arg3) := StableHlo.after_of_forall_not_mem (b := Proc.devRef .tc main_arg3) _ _ (by not_written)
    _ = W0 m ρ c (Proc.devRef .tc main_arg3) := StableHlo.after_of_forall_not_mem (b := Proc.devRef .tc main_arg3) _ _ (by not_written)
    _ = m ((c : Thread nD τ).loc main_arg3) := rfl

theorem W5_main_arg6 (c : Dev nD) : W5 (F := Ideal) m ρ c (Proc.devRef .tc main_arg6) = m ((c : Thread nD τ).loc main_arg6) :=
  calc W5 (F := Ideal) m ρ c (Proc.devRef .tc main_arg6)
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (by not_written)
    _ = W2 m ρ c (Proc.devRef .tc main_arg6) := StableHlo.after_of_forall_not_mem (b := Proc.devRef .tc main_arg6) _ _ (by not_written)
    _ = W1 m ρ c (Proc.devRef .tc main_arg6) := StableHlo.after_of_forall_not_mem (b := Proc.devRef .tc main_arg6) _ _ (by not_written)
    _ = W0 m ρ c (Proc.devRef .tc main_arg6) := StableHlo.after_of_forall_not_mem (b := Proc.devRef .tc main_arg6) _ _ (by not_written)
    _ = m ((c : Thread nD τ).loc main_arg6) := rfl

theorem W5_main_arg7 (c : Dev nD) : W5 (F := Ideal) m ρ c (Proc.devRef .tc main_arg7) = m ((c : Thread nD τ).loc main_arg7) :=
  calc W5 (F := Ideal) m ρ c (Proc.devRef .tc main_arg7)
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (by not_written)
    _ = W2 m ρ c (Proc.devRef .tc main_arg7) := StableHlo.after_of_forall_not_mem (b := Proc.devRef .tc main_arg7) _ _ (by not_written)
    _ = W1 m ρ c (Proc.devRef .tc main_arg7) := StableHlo.after_of_forall_not_mem (b := Proc.devRef .tc main_arg7) _ _ (by not_written)
    _ = W0 m ρ c (Proc.devRef .tc main_arg7) := StableHlo.after_of_forall_not_mem (b := Proc.devRef .tc main_arg7) _ _ (by not_written)
    _ = m ((c : Thread nD τ).loc main_arg7) := rfl

/-! ## The gathered rows -/

/-- An endpoint array broadcast to a column reads, at (e, 0), the array at e. -/
theorem ids_column_apply (ids : IVec S800000 32) (e : Fin 800000) :
    broadcastInDim S800000x1 ![0] bcast_S800000_S800000x1_0 ids (ix2 e 0) = ids (ix1 e) :=
  broadcastInDim_apply _ bcast_S800000_S800000x1_0 ids (ix2 e 0) (ix1 e) (fun a => match a with
    | ⟨0, _⟩ => by show e.val = if (800000 : Nat) = 1 then 0 else e.val; rw [if_neg (by decide)])

/-- Rows of a 50000-row table gathered at an endpoint column: at (e, k) the table at the row the endpoint word of
    edge e fetches, column k. -/
theorem take_rows_apply (T : S50000x128.Idx → EReal) (ids : IVec S800000 32) (e : Fin 800000) (k : Fin 128) :
    Host.gather gather_S50000x128_S800000x1_S800000x128_1_0_n_n_0_1_1128 T
        (broadcastInDim S800000x1 ![0] bcast_S800000_S800000x1_0 ids) (ix2 e k)
      = T (ix2 (node ids e) k) := by
  rw [GatherRows.gather_rows gather_S50000x128_S800000x1_S800000x128_1_0_n_n_0_1_1128 rfl rfl rfl rfl rfl T _ e k (by decide)]
  refine congrArg (fun r : Fin 50000 => T (ix2 r k)) (Fin.ext ?_)
  show min ((broadcastInDim S800000x1 ![0] bcast_S800000_S800000x1_0 ids) (ix2 e 0)).toInt.toNat (50000 - 1)
    = min (ids (ix1 e)).toInt.toNat (50000 - 1)
  rw [ids_column_apply]

/-- The edge region's first array at (e, k): the node region's second output (as the first region left it) at the row
    edge e's source word fetches. -/
theorem hu_apply (c : Dev nD) (e : Fin 800000) (k : Fin 128) :
    V8 (F := Ideal) m ρ c (Pipeline.arrRef spec1 0) (ix2 e k)
      = W5 (F := Ideal) m ρ c (Proc.devRef .tc main_v28_1) (ix2 (node (m ((c.tc : Thread nD τ).loc main_arg2)) e) k) := by
  show StableHlo.after hostOps1_2 (W7 (F := Ideal) m ρ c) (Proc.devRef .tc main_v29) (ix2 e k) = _
  after_results
  rw [W5_main_arg2]
  exact take_rows_apply (W5 (F := Ideal) m ρ c (Proc.devRef .tc main_v28_1)) (m ((c.tc : Thread nD τ).loc main_arg2)) e k

/-- Its second array at (e, k): the same at the row edge e's target word fetches. -/
theorem hv_apply (c : Dev nD) (e : Fin 800000) (k : Fin 128) :
    V8 (F := Ideal) m ρ c (Pipeline.arrRef spec1 1) (ix2 e k)
      = W5 (F := Ideal) m ρ c (Proc.devRef .tc main_v28_1) (ix2 (node (m ((c.tc : Thread nD τ).loc main_arg3)) e) k) := by
  show StableHlo.after hostOps1_2 (W7 (F := Ideal) m ρ c) (Proc.devRef .tc main_v30) (ix2 e k) = _
  after_results
  rw [W5_main_arg3]
  exact take_rows_apply (W5 (F := Ideal) m ρ c (Proc.devRef .tc main_v28_1)) (m ((c.tc : Thread nD τ).loc main_arg3)) e k

/-! ## The weight blocks and the bias row -/

/-- Rows o … o + 127 of the transposed 128 x 256 weight, at (k, j): the weight at row j, column o + k. -/
theorem weight_block_apply (W : S128x256.Idx → EReal) (o : Nat) (h : S256x128.Slices ![o, 0] S128x128) (k j : Fin 128) (q : Fin 256)
    (hq : q.val = o + k.val) :
    extractStridedSlice S128x128 ![o, 0] (transpose S256x128 [1, 0] W transposes_S128x256_S256x128_1_0) h (ix2 k j)
      = W (ix2 j q) :=
  (slice2_axis0_apply o _ h k j q hq).trans (transpose_ix2_apply W transposes_S128x256_S256x128_1_0 q j)

/-- The two weight blocks at (k, j): the 128 x 256 weight at row j, column k of the block. -/
theorem we1_apply (c : Dev nD) (k j : Fin 128) :
    V8 (F := Ideal) m ρ c (Pipeline.arrRef spec1 2) (ix2 k j) = (m ((c.tc : Thread nD τ).loc main_arg6)) (ix2 j (half0 k)) := by
  show StableHlo.after hostOps1_2 (W7 (F := Ideal) m ρ c) (Proc.devRef .tc main_v33) (ix2 k j) = _
  after_results
  rw [W5_main_arg6]
  exact weight_block_apply (m ((c.tc : Thread nD τ).loc main_arg6)) 0 slices_S256x128_S128x128_0_0 k j (half0 k) (Nat.zero_add _).symm
theorem we2_apply (c : Dev nD) (k j : Fin 128) :
    V8 (F := Ideal) m ρ c (Pipeline.arrRef spec1 3) (ix2 k j) = (m ((c.tc : Thread nD τ).loc main_arg6)) (ix2 j (half1 k)) := by
  show StableHlo.after hostOps1_2 (W7 (F := Ideal) m ρ c) (Proc.devRef .tc main_v35) (ix2 k j) = _
  after_results
  rw [W5_main_arg6]
  exact weight_block_apply (m ((c.tc : Thread nD τ).loc main_arg6)) 128 slices_S256x128_S128x128_128_0 k j (half1 k) rfl

/-- The bias row at (0, j). -/
theorem be_apply (c : Dev nD) (j : Fin 128) :
    V8 (F := Ideal) m ρ c (Pipeline.arrRef spec1 4) (ix2 0 j) = (m ((c.tc : Thread nD τ).loc main_arg7)) (ix1 j) := by
  show StableHlo.after hostOps1_2 (W7 (F := Ideal) m ρ c) (Proc.devRef .tc main_v36) (ix2 0 j) = _
  after_results
  rw [W5_main_arg7]
  exact shapeCast_a_1a_apply (m ((c.tc : Thread nD τ).loc main_arg7)) shapeCasts_S128_S1x128 0 j

/-- The node region's first output is not written after that region. -/
theorem out0_kept (c : Dev nD) :
    W9 (F := Ideal) m ρ c (Proc.devRef .tc main_v28_0) = W5 (F := Ideal) m ρ c (Proc.devRef .tc main_v28_0) :=
  calc W9 (F := Ideal) m ρ c (Proc.devRef .tc main_v28_0)
    _ = W8 m ρ c (Proc.devRef .tc main_v28_0) := W9_of_ne m ρ c main_v28_0 (by decide)
    _ = W7 m ρ c (Proc.devRef .tc main_v28_0) := StableHlo.after_of_forall_not_mem (b := Proc.devRef .tc main_v28_0) _ _ (by not_written)
    _ = W6 m ρ c (Proc.devRef .tc main_v28_0) := StableHlo.after_of_forall_not_mem (b := Proc.devRef .tc main_v28_0) _ _ (by not_written)
    _ = W5 m ρ c (Proc.devRef .tc main_v28_0) := StableHlo.after_of_forall_not_mem (b := Proc.devRef .tc main_v28_0) _ _ (by not_written)

end Cert.KernelIdeal.EdgeHost

end
-- ==== Proof.KernelValue.lean ====
/-
  The idealized kernel's two results, entry by entry, as the layer's formulas.

  The run ends with each result buffer at the last segment boundary's contents. The first result is the node region's
  first output, which nothing after that region writes; the second is the edge region's output. The node region's
  output at (i, j) is relu of three 128-term products and a bias, over arrays the host computed: the node features, the
  summed source and edge features of the incoming edges, the column of reciprocal in-degrees, and the weight's three
  column blocks transposed. A sum times the reciprocal in-degree (zero for an isolated node) is the mean; so the entry is
  the node's new feature. The edge region's inputs are rows of the node region's second output (the same numbers)
  fetched by the source and target words, and the second weight's two column blocks: so its entry is the edge's new
  feature.
-/
import proofs.«427057_j9414568312948_3_alg».proof.Proof.KernelRun
import proofs.«427057_j9414568312948_3_alg».proof.Proof.NodeValue
import proofs.«427057_j9414568312948_3_alg».proof.Proof.EdgeValue
import proofs.«427057_j9414568312948_3_alg».proof.Proof.NodeHost
import proofs.«427057_j9414568312948_3_alg».proof.Proof.EdgeHost
import proofs.«427057_j9414568312948_3_alg».proof.Proof.Spec

set_option maxRecDepth 16384

noncomputable section

open scoped BigOperators

namespace Cert.KernelIdeal.KernelValue

open Cert.KernelIdeal Cert.KernelIdeal.Gen Cert.Sage
open Cert.KernelIdeal.NodeValue Cert.KernelIdeal.EdgeValue
open Idealize.ShloMosaic Idealize.ShloMosaic.TcCoe Idealize.ShloMosaic.ValueIdx Idealize.SL.Sem

/-- A sum scaled by the reciprocal in-degree column is the mean. -/
theorem mul_inv_eq_meanOf (d : ℕ) (s r : EReal)
    (hr : r = if 0 < d then ((((1 : ℝ) / (d : ℝ) : ℝ)) : EReal) else 0) : s * r = meanOf d s := by
  unfold meanOf
  subst hr
  split_ifs
  · rfl
  · exact mul_zero s

/-- The node region's entry is the node's new feature, once its eight arrays are what the host makes of the inputs. -/
theorem nodeVal_eq_nodeOut (x sn se : S50000x128.Idx → EReal) (inv : S50000x1.Idx → EReal)
    (w1 w2 w3 : S128x128.Idx → EReal) (b : S1x128.Idx → EReal)
    (X : SNodes.Idx → EReal) (EF : SEdges.Idx → EReal) (u v : IVec SIds 32) (W : SWn.Idx → EReal) (B : SB.Idx → EReal)
    (i : Fin 50000) (j : Fin 128)
    (hx : ∀ k : Fin 128, x (ix2 i k) = X (ix2 i k))
    (hsn : ∀ k : Fin 128, sn (ix2 i k) = inSum v (fun n => X (ix2 (node u n) k)) i)
    (hse : ∀ k : Fin 128, se (ix2 i k) = inSum v (fun n => EF (ix2 n k)) i)
    (hinv : inv (ix2 i 0) = if 0 < deg v i then ((((1 : ℝ) / (deg v i : ℝ) : ℝ)) : EReal) else 0)
    (hw1 : ∀ k : Fin 128, w1 (ix2 k j) = W (ix2 j (col0 k)))
    (hw2 : ∀ k : Fin 128, w2 (ix2 k j) = W (ix2 j (col1 k)))
    (hw3 : ∀ k : Fin 128, w3 (ix2 k j) = W (ix2 j (col2 k)))
    (hb : b (ix2 0 j) = B (ix1 j)) :
    nodeVal x sn se inv w1 w2 w3 b i j = nodeOut X EF u v W B i j := by
  have e1 : (∑ k : Fin 128, x (ix2 i k) * w1 (ix2 k j)) = ∑ k : Fin 128, X (ix2 i k) * W (ix2 j (col0 k)) :=
    Finset.sum_congr rfl fun k _ => by rw [hx k, hw1 k]
  have e2 : (∑ k : Fin 128, (sn (ix2 i k) * inv (ix2 i 0)) * w2 (ix2 k j))
      = ∑ k : Fin 128, meanOf (deg v i) (inSum v (fun n => X (ix2 (node u n) k)) i) * W (ix2 j (col1 k)) :=
    Finset.sum_congr rfl fun k _ => by rw [hsn k, hw2 k, mul_inv_eq_meanOf _ _ _ hinv]
  have e3 : (∑ k : Fin 128, (se (ix2 i k) * inv (ix2 i 0)) * w3 (ix2 k j))
      = ∑ k : Fin 128, meanOf (deg v i) (inSum v (fun n => EF (ix2 n k)) i) * W (ix2 j (col2 k)) :=
    Finset.sum_congr rfl fun k _ => by rw [hse k, hw3 k, mul_inv_eq_meanOf _ _ _ hinv]
  have key : nodeVal x sn se inv w1 w2 w3 b i j
      = max ((((∑ k : Fin 128, x (ix2 i k) * w1 (ix2 k j))
          + ∑ k : Fin 128, (sn (ix2 i k) * inv (ix2 i 0)) * w2 (ix2 k j))
          + ∑ k : Fin 128, (se (ix2 i k) * inv (ix2 i 0)) * w3 (ix2 k j))
          + b (ix2 0 j)) 0 := rfl
  rw [key, e1, e2, e3, hb]
  rfl

/-- The edge region's entry is the edge's new feature, once its five arrays are what the host makes of them. -/
theorem edgeVal_eq_edgeOut (hu hv : S800000x128.Idx → EReal) (w1 w2 : S128x128.Idx → EReal) (b : S1x128.Idx → EReal)
    (H : Fin 50000 → Fin 128 → EReal) (u v : IVec SIds 32) (W : SWe.Idx → EReal) (B : SB.Idx → EReal)
    (e : Fin 800000) (j : Fin 128)
    (hhu : ∀ k : Fin 128, hu (ix2 e k) = H (node u e) k)
    (hhv : ∀ k : Fin 128, hv (ix2 e k) = H (node v e) k)
    (hw1 : ∀ k : Fin 128, w1 (ix2 k j) = W (ix2 j (half0 k)))
    (hw2 : ∀ k : Fin 128, w2 (ix2 k j) = W (ix2 j (half1 k)))
    (hb : b (ix2 0 j) = B (ix1 j)) :
    edgeVal hu hv w1 w2 b e j = edgeOut H u v W B e j := by
  have e1 : (∑ k : Fin 128, hu (ix2 e k) * w1 (ix2 k j)) = ∑ k : Fin 128, H (node u e) k * W (ix2 j (half0 k)) :=
    Finset.sum_congr rfl fun k _ => by rw [hhu k, hw1 k]
  have e2 : (∑ k : Fin 128, hv (ix2 e k) * w2 (ix2 k j)) = ∑ k : Fin 128, H (node v e) k * W (ix2 j (half1 k)) :=
    Finset.sum_congr rfl fun k _ => by rw [hhv k, hw2 k]
  have key : edgeVal hu hv w1 w2 b e j
      = max (((∑ k : Fin 128, hu (ix2 e k) * w1 (ix2 k j)) + ∑ k : Fin 128, hv (ix2 e k) * w2 (ix2 k j))
          + b (ix2 0 j)) 0 := rfl
  rw [key, e1, e2, hb]
  rfl

variable (m : (ℓ : Loc nD τ sig) → Buf (Elt Ideal) ℓ) (ρ : Dev nD → PrngReg)

/-- Either output of the node region at (i, j) is node i's new feature j. -/
theorem node_entry (c : Dev nD) (i : Fin 50000) (j : Fin 128) :
    (dat0 (F := Ideal) (V4 m ρ) c).arrAt 8 cfg0.N (ix2 i j)
      = nodeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) i j := by
  rw [node_f32]
  exact nodeVal_eq_nodeOut _ _ _ _ _ _ _ _ _ _ _ _ _ _ i j
    (fun k => by rw [NodeHost.x_eq]) (fun k => NodeHost.sn_apply m ρ c i k) (fun k => NodeHost.se_apply m ρ c i k)
    (NodeHost.inv_apply m ρ c i) (fun k => NodeHost.w1_apply m ρ c k j) (fun k => NodeHost.w2_apply m ρ c k j)
    (fun k => NodeHost.w3_apply m ρ c k j) (NodeHost.b_apply m ρ c j)

theorem node_entry_copy (c : Dev nD) (i : Fin 50000) (j : Fin 128) :
    (dat0 (F := Ideal) (V4 m ρ) c).arrAt 9 cfg0.N (ix2 i j)
      = nodeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) i j := by
  rw [node_bf16]
  exact nodeVal_eq_nodeOut _ _ _ _ _ _ _ _ _ _ _ _ _ _ i j
    (fun k => by rw [NodeHost.x_eq]) (fun k => NodeHost.sn_apply m ρ c i k) (fun k => NodeHost.se_apply m ρ c i k)
    (NodeHost.inv_apply m ρ c i) (fun k => NodeHost.w1_apply m ρ c k j) (fun k => NodeHost.w2_apply m ρ c k j)
    (fun k => NodeHost.w3_apply m ρ c k j) (NodeHost.b_apply m ρ c j)

/-- The edge region's output at (e, j) is edge e's new feature j. -/
theorem edge_entry (c : Dev nD) (e : Fin 800000) (j : Fin 128) :
    (dat1 (F := Ideal) (V8 m ρ) c).arrAt 5 cfg1.N (ix2 e j)
      = edgeOut (nodeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
          (m ((c.tc : Thread nD τ).loc main_arg2)) (m ((c.tc : Thread nD τ).loc main_arg3)) (m ((c.tc : Thread nD τ).loc main_arg6)) (m ((c.tc : Thread nD τ).loc main_arg7)) e j := by
  rw [edge_f32]
  refine edgeVal_eq_edgeOut _ _ _ _ _ _ _ _ _ _ e j (fun k => ?_) (fun k => ?_)
    (fun k => EdgeHost.we1_apply m ρ c k j) (fun k => EdgeHost.we2_apply m ρ c k j) (EdgeHost.be_apply m ρ c j)
  · rw [EdgeHost.hu_apply]
    exact (congrFun (W5_arr m ρ c 9) _).trans (node_entry_copy m ρ c _ k)
  · rw [EdgeHost.hv_apply]
    exact (congrFun (W5_arr m ρ c 9) _).trans (node_entry_copy m ρ c _ k)

/-- The idealized kernel's run, its two results read entry by entry. -/
theorem run_spec : θ_run defs (onTc (τ := τ) (main (F := Ideal))) ⟨m, fun _ => 0, ρ⟩ (fun r => ∀ c : Dev nD,
      (∀ (i : Fin 50000) (j : Fin 128), r.2.mem ((c.tc : Thread nD τ).loc main_v28_0) (ix2 i j)
          = nodeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) i j)
      ∧ (∀ (e : Fin 800000) (j : Fin 128), r.2.mem ((c.tc : Thread nD τ).loc main_v37) (ix2 e j)
          = edgeOut (nodeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
              (m ((c.tc : Thread nD τ).loc main_arg2)) (m ((c.tc : Thread nD τ).loc main_arg3)) (m ((c.tc : Thread nD τ).loc main_arg6)) (m ((c.tc : Thread nD τ).loc main_arg7)) e j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨fun i j => by
      rw [(h c).1, EdgeHost.out0_kept]
      exact (congrFun (W5_arr m ρ c 8) _).trans (node_entry m ρ c i j),
    fun e j => by
      rw [(h c).2.1]
      exact (congrFun (W9_arr m ρ c 5) _).trans (edge_entry m ρ c e j),
    (h c).2.2⟩) (Cert.KernelIdeal.GenP.run_results (F := Ideal) m ρ)

end Cert.KernelIdeal.KernelValue

end
-- ==== Proof.RefValueAlg.lean ====
/-
  The arithmetic of the layer's formulas that does not depend on either program: a count as a sum of ones, a mean as a
  guarded quotient, and a sum over a row of 384 (of 256) columns as the sum of its three (two) blocks of 128.
-/
import proofs.«427057_j9414568312948_3_alg».proof.Proof.Spec
import Idealize.ShloMosaic.PureOps.Ideal.Laws
import Mathlib.Algebra.BigOperators.Fin
import Mathlib.Algebra.BigOperators.Ring.Finset

noncomputable section

open scoped BigOperators

namespace Cert.ReferenceIdeal.RefValue

open Cert.Sage Idealize.ShloMosaic

/-- The coercion of the reals into the extended reals goes through a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of ones over the indices with a property is the number of those indices. -/
theorem sum_indicator_one {ι : Type*} [Fintype ι] (p : ι → Prop) [DecidablePred p] :
    (∑ n : ι, if p n then (1 : EReal) else 0) = (((Finset.univ.filter p).card : ℝ) : EReal) := by
  have h : ∀ n : ι, (if p n then (1 : EReal) else 0) = (((if p n then (1 : ℝ) else 0) : ℝ) : EReal) := by
    intro n; split_ifs <;> simp
  simp only [h]
  rw [← coe_sum, Finset.sum_boole]

/-- The word 0x3F800000 is the float one: exponent 127, no fraction. -/
theorem ofBits_one_f32 : Ideal.ofBits .f32 0x3F800000#32 = 1 := by
  simp [Ideal.ofBits, Ideal.ieee]
  exact_mod_cast (by norm_num : (8388608 : ℝ) * ((2 : ℝ) ^ 23)⁻¹ = 1)

/-- Where the count d is positive, the quotient of a sum by max(d, 1) is the sum times 1/d; where it is zero, the
    guard answers zero: the mean of the layer. -/
theorem mean_eq (d : ℕ) (s : EReal) :
    Scalar.select (Ideal.cmp .ogt (((d : ℝ) : EReal)) 0) (Ideal.div s (max (((d : ℝ) : EReal)) 1)) (0 : EReal)
      = meanOf d s := by
  unfold meanOf
  by_cases hd : 0 < d
  · have h0 : (0 : EReal) < ((d : ℝ) : EReal) := by exact_mod_cast hd
    have h1 : max (((d : ℝ) : EReal)) 1 = ((d : ℝ) : EReal) := by
      apply max_eq_left
      have : (1 : ℝ) ≤ (d : ℝ) := by exact_mod_cast hd
      exact_mod_cast this
    have hne : (d : ℝ) ≠ 0 := by exact_mod_cast hd.ne'
    have hc : Ideal.cmp .ogt (((d : ℝ) : EReal)) 0 = 1#1 := by
      show BitVec.ofBool (decide ((0 : EReal) < ((d : ℝ) : EReal))) = 1#1
      rw [decide_eq_true h0]; rfl
    rw [if_pos hd, h1, Ideal.div_coe hne, hc]
    exact if_pos rfl
  · have hc : Ideal.cmp .ogt (((d : ℝ) : EReal)) 0 = 0#1 := by
      show BitVec.ofBool (decide ((0 : EReal) < ((d : ℝ) : EReal))) = 0#1
      have : ¬ (0 : EReal) < ((d : ℝ) : EReal) := by
        intro h; apply hd; exact_mod_cast h
      rw [decide_eq_false this]; rfl
    rw [if_neg hd, hc]
    exact if_neg (by decide)

/-- A sum over 384 columns is the sum over its three blocks of 128, in order. -/
theorem sum_fin384 {M : Type*} [AddCommMonoid M] (f : Fin 384 → M) :
    ∑ c, f c = ((∑ k : Fin 128, f (col0 k)) + ∑ k : Fin 128, f (col1 k)) + ∑ k : Fin 128, f (col2 k) := by
  have h1 := Fin.sum_univ_add (a := 256) (b := 128) f
  have h2 := Fin.sum_univ_add (a := 128) (b := 128) (fun i : Fin 256 => f (Fin.castAdd 128 i))
  rw [h1, h2]
  rfl

/-- A sum over 256 columns is the sum over its two halves of 128, in order. -/
theorem sum_fin256 {M : Type*} [AddCommMonoid M] (f : Fin 256 → M) :
    ∑ c, f c = (∑ k : Fin 128, f (half0 k)) + ∑ k : Fin 128, f (half1 k) := by
  have h2 := Fin.sum_univ_add (a := 128) (b := 128) f
  rw [h2]
  rfl

end Cert.ReferenceIdeal.RefValue

end
-- ==== Proof.RefValueNode.lean ====
/-
  The reference's first result, read entry by entry as the layer's formula for a node's new features.

  In program order. The source word of an edge, wrapped by 50000 when it is negative, is the word itself when it is not
  (`wrap_of_nonneg`). The row gathered for edge n is then the feature row of node(u n). The message of edge n is that row
  followed by the edge's own row (a concatenation: columns 0 … 127 and 128 … 255). The accumulating scatter by the target
  words sums, at node i, the messages of the edges pointing at i; the same scatter of ones counts them. The guarded
  quotient by max(count, 1) is the mean. The node's input row is its own row followed by the mean message: 384 columns,
  whose product with the transposed weight is a sum over 384 columns, the sum of its three blocks of 128. The bias is a
  row broadcast down the nodes, and the rectifier is the maximum with zero.
-/
import proofs.«427057_j9414568312948_3_alg».proof.Proof.RefRead
import proofs.«427057_j9414568312948_3_alg».proof.Proof.Spec
import proofs.«427057_j9414568312948_3_alg».proof.Proof.LibScatterAddRows
import proofs.«427057_j9414568312948_3_alg».proof.Proof.LibGatherRows
import proofs.«427057_j9414568312948_3_alg».proof.Proof.RefValueAlg
import Idealize.ShloMosaic.Lib.Pipeline.Value
import Idealize.ShloMosaic.Lib.ValueIdx
import Idealize.ShloMosaic.Lib.Affine
import Idealize.ShloMosaic.PureOps.Ideal.Laws

noncomputable section

open scoped BigOperators

namespace Cert.ReferenceIdeal.RefValue

open Cert.ReferenceIdeal Cert.ReferenceIdeal.Gen Cert.ReferenceIdeal.Read Cert.Sage
open Idealize.ShloMosaic Idealize.ShloMosaic.ValueIdx

variable {x0 : (⟨S50000x128, .f32⟩ : BufTy).Contents (Elt Ideal)} {x1 : (⟨S800000x128, .f32⟩ : BufTy).Contents (Elt Ideal)}
  {x2 x3 : (⟨S800000, .i32⟩ : BufTy).Contents (Elt Ideal)} {x4 : (⟨S128x384, .f32⟩ : BufTy).Contents (Elt Ideal)}
  {x5 : (⟨S128, .f32⟩ : BufTy).Contents (Elt Ideal)}

/-! ## The endpoint words -/

/-- A word that is not negative is not below zero, so the select that wraps negative words keeps it. -/
theorem wrap_of_nonneg (a b : BitVec 32) (h : 0 ≤ a.toInt) :
    Scalar.select (IntOp.cmpi .slt a 0#32) b a = a := by
  have hc : ¬ IntOp.cmpi .slt a 0#32 = 1#1 := by
    rw [IntOp.cmpi_slt]
    have h0 : (0#32 : BitVec 32).toInt = 0 := by decide
    omega
  exact if_neg hc

/-- The wrapped source word of edge n is the source word. -/
theorem v4_apply (hu : ∀ n : Fin 800000, 0 ≤ (x2 (ix1 n)).toInt) (n : Fin 800000) :
    val_main_v4 (F := Ideal) x2 (ix1 n) = x2 (ix1 n) := by
  rw [val_main_v4_apply, val_main_v1_apply, val_main_v0_apply, val_main_c_apply]
  exact wrap_of_nonneg _ _ (hu n)

/-- The column of wrapped source words at (n, 0). -/
theorem v5_apply (hu : ∀ n : Fin 800000, 0 ≤ (x2 (ix1 n)).toInt) (n : Fin 800000) :
    val_main_v5 (F := Ideal) x2 (ix2 n (0 : Fin 1)) = x2 (ix1 n) := by
  rw [val_main_v5_apply]
  have hi : idx_main_v5 (ix2 n (0 : Fin 1)) = ix1 n := by
    funext a; match a with | ⟨0, _⟩ => rfl
  rw [hi]
  exact v4_apply hu n

/-- The column of target words at (n, 0), as the first scatter reads it. -/
theorem v9_apply (n : Fin 800000) : val_main_v9 (F := Ideal) x3 (ix2 n (0 : Fin 1)) = x3 (ix1 n) := by
  rw [val_main_v9_apply]
  have hi : idx_main_v9 (ix2 n (0 : Fin 1)) = ix1 n := by
    funext a; match a with | ⟨0, _⟩ => rfl
  rw [hi]

/-- The column of target words at (n, 0), as the counting scatter reads it. -/
theorem v13_apply (n : Fin 800000) : val_main_v13 (F := Ideal) x3 (ix2 n (0 : Fin 1)) = x3 (ix1 n) := by
  rw [val_main_v13_apply]
  have hi : idx_main_v13 (ix2 n (0 : Fin 1)) = ix1 n := by
    funext a; match a with | ⟨0, _⟩ => rfl
  rw [hi]

/-! ## The messages -/

/-- The row gathered for edge n is the feature row of its source node. -/
theorem v6_apply (hu : ∀ n : Fin 800000, 0 ≤ (x2 (ix1 n)).toInt) (n : Fin 800000) (k : Fin 128) :
    val_main_v6 (F := Ideal) x0 x2 (ix2 n k) = x0 (ix2 (node x2 n) k) := by
  unfold val_main_v6
  refine (GatherRows.gather_rows gather_S50000x128_S800000x1_S800000x128_1_0_n_n_0_1_1128 rfl rfl rfl rfl rfl x0
    (val_main_v5 (F := Ideal) x2) n k (by decide)).trans ?_
  refine congrArg (fun r : Fin 50000 => x0 (ix2 r k)) (Fin.ext ?_)
  show min (val_main_v5 (F := Ideal) x2 (ix2 n (0 : Fin 1))).toInt.toNat (50000 - 1) = min (x2 (ix1 n)).toInt.toNat (50000 - 1)
  rw [v5_apply hu n]

/-- Columns 0 … 127 of edge n's message: the gathered source row. -/
theorem v7_left (n : Fin 800000) (k : Fin 128) :
    val_main_v7 (F := Ideal) x0 x1 x2 (ix2 n (half0 k)) = val_main_v6 (F := Ideal) x0 x2 (ix2 n k) := by
  unfold val_main_v7
  exact concatenate_pair_apply_left _ _ _ concatenates_S800000x128_S800000x128_S800000x256_d1 (ix2 n (half0 k)) rfl (ix2 n k)
    (fun b => match b with | ⟨0, _⟩ => rfl | ⟨1, _⟩ => rfl)

/-- Columns 128 … 255 of edge n's message: the edge's own row. -/
theorem v7_right (n : Fin 800000) (k : Fin 128) :
    val_main_v7 (F := Ideal) x0 x1 x2 (ix2 n (half1 k)) = x1 (ix2 n k) := by
  unfold val_main_v7
  exact concatenate_pair_apply_right _ _ _ concatenates_S800000x128_S800000x128_S800000x256_d1 (ix2 n (half1 k)) rfl rfl (ix2 n k)
    (fun b hb => match b, hb with | ⟨0, _⟩, _ => rfl | ⟨1, _⟩, hb => (hb (Fin.ext rfl)).elim)
    (by show k.val + 128 = 128 + k.val; omega)

/-! ## The sums and the count -/

/-- The zero operand of the first scatter. -/
theorem v8_apply (i : S50000x256.Idx) : val_main_v8 (F := Ideal) i = 0 := by
  rw [val_main_v8_apply, val_main_cst_apply]
  exact Ideal.ofBits_zero_f32

/-- The zero operand of the counting scatter. -/
theorem v12_apply (i : S50000.Idx) : val_main_v12 (F := Ideal) i = 0 := by
  rw [val_main_v12_apply, val_main_cst_2_apply]
  exact Ideal.ofBits_zero_f32

/-- The updates of the counting scatter are ones. -/
theorem v11_apply (i : S800000.Idx) : val_main_v11 (F := Ideal) i = 1 := by
  rw [val_main_v11_apply, val_main_cst_1_apply]
  exact ofBits_one_f32

/-- The host's accumulating scatter at the ideal values is the exact sum. -/
theorem scatterAdd_ideal {s si u : Shape} {w : Nat} (d : ScatterDims s si u) (x : FVec Ideal s .f32) (idx : IVec si w)
    (upd : FVec Ideal u .f32) : Host.scatterAdd (F := Ideal) (φ := .f32) d x idx upd = Ideal.hostScatterAdd d x idx upd := rfl

/-- The scattered messages, as the operation and its operands. -/
theorem v10_def :
    val_main_v10 (F := Ideal) x0 x1 x2 x3
      = Host.scatterAdd (F := Ideal) (φ := .f32) scatter_S50000x256_S800000x1_S800000x256_1_0_0_1 (val_main_v8 (F := Ideal))
          (val_main_v9 (F := Ideal) x3) (val_main_v7 (F := Ideal) x0 x1 x2) := rfl

/-- The scattered ones, as the operation and its operands. -/
theorem v14_def :
    val_main_v14 (F := Ideal) x3
      = Host.scatterAdd (F := Ideal) (φ := .f32) scatter_S50000_S800000x1_S800000_n_0_0_1 (val_main_v12 (F := Ideal))
          (val_main_v13 (F := Ideal) x3) (val_main_v11 (F := Ideal)) := rfl

/-- Entry (i, e) of the scattered messages: the sum of column e of the messages of the edges pointing at node i. -/
theorem v10_apply (i : Fin 50000) (e : Fin 256) :
    val_main_v10 (F := Ideal) x0 x1 x2 x3 (ix2 i e)
      = inSum x3 (fun n => val_main_v7 (F := Ideal) x0 x1 x2 (ix2 n e)) i := by
  rw [v10_def, scatterAdd_ideal]
  refine (ScatterAddRows.scatterAdd_rows_apply scatter_S50000x256_S800000x1_S800000x256_1_0_0_1_wf (val_main_v8 (F := Ideal))
    (val_main_v9 (F := Ideal) x3) (val_main_v7 (F := Ideal) x0 x1 x2) i e).trans ?_
  rw [v8_apply, zero_add]
  unfold inSum
  refine Finset.sum_congr rfl fun n _ => ?_
  rw [v9_apply]

/-- Entry i of the scattered ones: the number of edges pointing at node i. -/
theorem v14_apply (i : Fin 50000) :
    val_main_v14 (F := Ideal) x3 (ix1 i) = (((deg x3 i : ℕ) : ℝ) : EReal) := by
  rw [v14_def, scatterAdd_ideal]
  refine (ScatterAddRows.scatterAdd_vec_apply scatter_S50000_S800000x1_S800000_n_0_0_1_wf (val_main_v12 (F := Ideal))
    (val_main_v13 (F := Ideal) x3) (val_main_v11 (F := Ideal)) i).trans ?_
  rw [v12_apply, zero_add]
  have h : ∀ n : Fin 800000,
      (if (val_main_v13 (F := Ideal) x3 (ix2 n (0 : Fin 1))).toInt = (i.val : ℤ) then val_main_v11 (F := Ideal) (ix1 n) else 0)
        = (if pointsAt x3 n i then (1 : EReal) else 0) := by
    intro n; rw [v13_apply, v11_apply]
  rw [Finset.sum_congr rfl fun n _ => h n]
  exact sum_indicator_one _

/-! ## The mean -/

/-- The guard of the mean at (i, e): whether node i's count is positive. -/
theorem call0_v1_apply (i : Fin 50000) (e : Fin 256) :
    val_main_call0_v1 (F := Ideal) x3 (ix2 i e) = Ideal.cmp .ogt (((deg x3 i : ℕ) : ℝ) : EReal) 0 := by
  rw [val_main_call0_v1_apply, val_main_v17_apply, val_main_v15_apply, val_main_v16_apply, val_main_cst_3_apply]
  have hi : idx_main_v15 (idx_main_call0_v1 (ix2 i e)) = ix1 i := by
    funext a; match a with | ⟨0, _⟩ => rfl
  rw [hi, v14_apply]
  show Ideal.cmp .ogt _ (Ideal.ofBits .f32 0x00000000#32) = _
  rw [Ideal.ofBits_zero_f32]

/-- The divisor of the mean at (i, e): the larger of node i's count and one. -/
theorem v21_apply (i : Fin 50000) (e : Fin 256) :
    val_main_v21 (F := Ideal) x3 (ix2 i e) = max ((((deg x3 i : ℕ) : ℝ) : EReal)) 1 := by
  rw [val_main_v21_apply, val_main_v20_apply, val_main_v19_apply, val_main_v18_apply, val_main_cst_4_apply]
  have hi : idx_main_v20 (idx_main_v21 (ix2 i e)) = ix1 i := by
    funext a; match a with | ⟨0, _⟩ => rfl
  rw [hi, v14_apply]
  show max _ (Ideal.ofBits .f32 0x3F800000#32) = _
  rw [ofBits_one_f32]

/-- The value of the mean where the guard fails: zero. -/
theorem call0_v2_apply (i : S50000x256.Idx) : val_main_call0_v2 (F := Ideal) i = 0 := by
  rw [val_main_call0_v2_apply, val_main_call0_v0_apply, val_main_cst_5_apply]
  exact Ideal.ofBits_zero_f32

/-- Entry (i, e) of the mean message: the mean over the edges pointing at node i of column e of their messages. -/
theorem v23_apply (i : Fin 50000) (e : Fin 256) :
    val_main_v23 (F := Ideal) x0 x1 x2 x3 (ix2 i e)
      = meanOf (deg x3 i) (inSum x3 (fun n => val_main_v7 (F := Ideal) x0 x1 x2 (ix2 n e)) i) := by
  rw [val_main_v23_apply, val_main_v22_apply, call0_v1_apply, v21_apply, call0_v2_apply, v10_apply]
  exact mean_eq _ _

/-- Columns 0 … 127 of the mean message: the mean of the source nodes' features. -/
theorem v23_half0 (hu : ∀ n : Fin 800000, 0 ≤ (x2 (ix1 n)).toInt) (i : Fin 50000) (k : Fin 128) :
    val_main_v23 (F := Ideal) x0 x1 x2 x3 (ix2 i (half0 k)) = meanSrc x0 x2 x3 i k := by
  rw [v23_apply]
  have h : (fun n : Fin 800000 => val_main_v7 (F := Ideal) x0 x1 x2 (ix2 n (half0 k)))
      = fun n => x0 (ix2 (node x2 n) k) := funext fun n => by rw [v7_left, v6_apply hu]
  rw [h]
  rfl

/-- Columns 128 … 255 of the mean message: the mean of the edges' own features. -/
theorem v23_half1 (i : Fin 50000) (k : Fin 128) :
    val_main_v23 (F := Ideal) x0 x1 x2 x3 (ix2 i (half1 k)) = meanEdge x1 x3 i k := by
  rw [v23_apply]
  have h : (fun n : Fin 800000 => val_main_v7 (F := Ideal) x0 x1 x2 (ix2 n (half1 k)))
      = fun n => x1 (ix2 n k) := funext fun n => by rw [v7_right]
  rw [h]
  rfl

/-! ## The node's input row and the affine map -/

/-- Columns 0 … 127 of node i's input row: its own features. -/
theorem v24_col0 (i : Fin 50000) (k : Fin 128) :
    val_main_v24 (F := Ideal) x0 x1 x2 x3 (ix2 i (col0 k)) = x0 (ix2 i k) := by
  unfold val_main_v24
  exact concatenate_pair_apply_left _ _ _ concatenates_S50000x128_S50000x256_S50000x384_d1 (ix2 i (col0 k)) rfl (ix2 i k)
    (fun b => match b with | ⟨0, _⟩ => rfl | ⟨1, _⟩ => rfl)

/-- Columns 128 … 255 of node i's input row: the first half of the mean message. -/
theorem v24_col1 (i : Fin 50000) (k : Fin 128) :
    val_main_v24 (F := Ideal) x0 x1 x2 x3 (ix2 i (col1 k)) = val_main_v23 (F := Ideal) x0 x1 x2 x3 (ix2 i (half0 k)) := by
  unfold val_main_v24
  exact concatenate_pair_apply_right _ _ _ concatenates_S50000x128_S50000x256_S50000x384_d1 (ix2 i (col1 k)) rfl rfl
    (ix2 i (half0 k))
    (fun b hb => match b, hb with | ⟨0, _⟩, _ => rfl | ⟨1, _⟩, hb => (hb (Fin.ext rfl)).elim)
    (by show k.val + 128 = 128 + k.val; omega)

/-- Columns 256 … 383 of node i's input row: the second half of the mean message. -/
theorem v24_col2 (i : Fin 50000) (k : Fin 128) :
    val_main_v24 (F := Ideal) x0 x1 x2 x3 (ix2 i (col2 k)) = val_main_v23 (F := Ideal) x0 x1 x2 x3 (ix2 i (half1 k)) := by
  unfold val_main_v24
  exact concatenate_pair_apply_right _ _ _ concatenates_S50000x128_S50000x256_S50000x384_d1 (ix2 i (col2 k)) rfl rfl
    (ix2 i (half1 k))
    (fun b hb => match b, hb with | ⟨0, _⟩, _ => rfl | ⟨1, _⟩, hb => (hb (Fin.ext rfl)).elim)
    (by show (128 + k.val) + 128 = 256 + k.val; omega)

/-- Entry (i, j) of the product with the transposed weight: the sum over the 384 columns c of input (i, c) times
    weight (j, c). -/
theorem v26_apply (i : Fin 50000) (j : Fin 128) :
    val_main_v26 (F := Ideal) x0 x1 x2 x3 x4 (ix2 i j)
      = ∑ c : Fin 384, val_main_v24 (F := Ideal) x0 x1 x2 x3 (ix2 i c) * x4 (ix2 j c) := by
  rw [val_main_v26_apply]
  refine Finset.sum_congr rfl fun c _ => ?_
  have hl : lidx_main_v26 (ix2 i j) c = ix2 i c := by
    funext a; match a with | ⟨0, _⟩ => rfl | ⟨1, _⟩ => rfl
  have hr : ridx_main_v26 (ix2 i j) c = ix2 c j := by
    funext a; match a with | ⟨0, _⟩ => rfl | ⟨1, _⟩ => rfl
  have ht : idx_main_v25 (ix2 c j) = ix2 j c := by
    funext a; match a with | ⟨0, _⟩ => rfl | ⟨1, _⟩ => rfl
  rw [hl, hr, val_main_v25_apply, ht]

/-- The bias broadcast down the nodes, at (i, j): bias j. -/
theorem v28_apply (i : Fin 50000) (j : Fin 128) : val_main_v28 (F := Ideal) x5 (ix2 i j) = x5 (ix1 j) := by
  rw [val_main_v28_apply, val_main_v27_apply]
  have hi : idx_main_v27 (idx_main_v28 (ix2 i j)) = ix1 j := by
    funext a; match a with | ⟨0, _⟩ => rfl
  rw [hi]

/-- The rectifier's zero. -/
theorem call1_v0_apply (i : S50000x128.Idx) : val_main_call1_v0 (F := Ideal) i = 0 := by
  rw [val_main_call1_v0_apply, val_main_call1_cst_apply]
  exact Ideal.ofBits_zero_f32

/-- THE NODE RESULT, entry (i, j): the layer's formula for node i's new feature j. -/
theorem node_entry (hu : ∀ n : Fin 800000, 0 ≤ (x2 (ix1 n)).toInt) (i : Fin 50000) (j : Fin 128) :
    val_main_v30 (F := Ideal) x0 x1 x2 x3 x4 x5 (ix2 i j) = nodeOut x0 x1 x2 x3 x4 x5 i j := by
  have h26 : val_main_v26 (F := Ideal) x0 x1 x2 x3 x4 (ix2 i j)
      = ((∑ k : Fin 128, x0 (ix2 i k) * x4 (ix2 j (col0 k)))
          + ∑ k : Fin 128, meanSrc x0 x2 x3 i k * x4 (ix2 j (col1 k)))
          + ∑ k : Fin 128, meanEdge x1 x3 i k * x4 (ix2 j (col2 k)) := by
    have e0 : (∑ k : Fin 128, val_main_v24 (F := Ideal) x0 x1 x2 x3 (ix2 i (col0 k)) * x4 (ix2 j (col0 k)))
        = ∑ k : Fin 128, x0 (ix2 i k) * x4 (ix2 j (col0 k)) :=
      Finset.sum_congr rfl fun k _ => by rw [v24_col0]
    have e1 : (∑ k : Fin 128, val_main_v24 (F := Ideal) x0 x1 x2 x3 (ix2 i (col1 k)) * x4 (ix2 j (col1 k)))
        = ∑ k : Fin 128, meanSrc x0 x2 x3 i k * x4 (ix2 j (col1 k)) :=
      Finset.sum_congr rfl fun k _ => by rw [v24_col1, v23_half0 hu]
    have e2 : (∑ k : Fin 128, val_main_v24 (F := Ideal) x0 x1 x2 x3 (ix2 i (col2 k)) * x4 (ix2 j (col2 k)))
        = ∑ k : Fin 128, meanEdge x1 x3 i k * x4 (ix2 j (col2 k)) :=
      Finset.sum_congr rfl fun k _ => by rw [v24_col2, v23_half1]
    rw [v26_apply, sum_fin384, e0, e1, e2]
  rw [val_main_v30_apply, val_main_v29_apply, h26, v28_apply, call1_v0_apply]
  rfl

end Cert.ReferenceIdeal.RefValue

end
-- ==== Proof.RefValueEdge.lean ====
/-
  The reference's second result, read entry by entry as the layer's formula for an edge's new features.

  The two rows gathered for edge e are rows of the FIRST result (the nodes' new features): the row of node(u e) and the
  row of node(v e), both endpoint words wrapped by 50000 when negative, which leaves a word that is not negative as it
  is. The edge's input row is the first followed by the second: 256 columns, whose product with the transposed weight is
  a sum over 256 columns, the sum of its two halves of 128. The bias is a row broadcast down the edges, and the rectifier
  is the maximum with zero. The first result's entries are the layer's formula for a node by the node entry lemma.
-/
import proofs.«427057_j9414568312948_3_alg».proof.Proof.RefValueNode

noncomputable section

open scoped BigOperators

namespace Cert.ReferenceIdeal.RefValue

open Cert.ReferenceIdeal Cert.ReferenceIdeal.Gen Cert.ReferenceIdeal.Read Cert.Sage
open Idealize.ShloMosaic Idealize.ShloMosaic.ValueIdx

variable {x0 : (⟨S50000x128, .f32⟩ : BufTy).Contents (Elt Ideal)} {x1 : (⟨S800000x128, .f32⟩ : BufTy).Contents (Elt Ideal)}
  {x2 x3 : (⟨S800000, .i32⟩ : BufTy).Contents (Elt Ideal)} {x4 : (⟨S128x384, .f32⟩ : BufTy).Contents (Elt Ideal)}
  {x5 : (⟨S128, .f32⟩ : BufTy).Contents (Elt Ideal)}
variable {x6 : (⟨S128x256, .f32⟩ : BufTy).Contents (Elt Ideal)} {x7 : (⟨S128, .f32⟩ : BufTy).Contents (Elt Ideal)}

/-! ## The endpoint words, wrapped -/

/-- The wrapped source word of edge n, as the second gather's index column is built from it, is the source word. -/
theorem v35_apply (hu : ∀ n : Fin 800000, 0 ≤ (x2 (ix1 n)).toInt) (n : Fin 800000) :
    val_main_v35 (F := Ideal) x2 (ix1 n) = x2 (ix1 n) := by
  rw [val_main_v35_apply, val_main_v32_apply, val_main_v31_apply, val_main_c_6_apply]
  exact wrap_of_nonneg _ _ (hu n)

/-- The column of wrapped source words at (n, 0). -/
theorem v36_apply (hu : ∀ n : Fin 800000, 0 ≤ (x2 (ix1 n)).toInt) (n : Fin 800000) :
    val_main_v36 (F := Ideal) x2 (ix2 n (0 : Fin 1)) = x2 (ix1 n) := by
  rw [val_main_v36_apply]
  have hi : idx_main_v36 (ix2 n (0 : Fin 1)) = ix1 n := by
    funext a; match a with | ⟨0, _⟩ => rfl
  rw [hi]
  exact v35_apply hu n

/-- The wrapped target word of edge n is the target word. -/
theorem v42_apply (hv : ∀ n : Fin 800000, 0 ≤ (x3 (ix1 n)).toInt) (n : Fin 800000) :
    val_main_v42 (F := Ideal) x3 (ix1 n) = x3 (ix1 n) := by
  rw [val_main_v42_apply, val_main_v39_apply, val_main_v38_apply, val_main_c_8_apply]
  exact wrap_of_nonneg _ _ (hv n)

/-- The column of wrapped target words at (n, 0). -/
theorem v43_apply (hv : ∀ n : Fin 800000, 0 ≤ (x3 (ix1 n)).toInt) (n : Fin 800000) :
    val_main_v43 (F := Ideal) x3 (ix2 n (0 : Fin 1)) = x3 (ix1 n) := by
  rw [val_main_v43_apply]
  have hi : idx_main_v43 (ix2 n (0 : Fin 1)) = ix1 n := by
    funext a; match a with | ⟨0, _⟩ => rfl
  rw [hi]
  exact v42_apply hv n

/-! ## The edge's input row -/

/-- The first row gathered for edge e: the new features of its source node. -/
theorem v37_apply (hu : ∀ n : Fin 800000, 0 ≤ (x2 (ix1 n)).toInt) (e : Fin 800000) (k : Fin 128) :
    val_main_v37 (F := Ideal) x0 x1 x2 x3 x4 x5 (ix2 e k)
      = val_main_v30 (F := Ideal) x0 x1 x2 x3 x4 x5 (ix2 (node x2 e) k) := by
  unfold val_main_v37
  refine (GatherRows.gather_rows gather_S50000x128_S800000x1_S800000x128_1_0_n_n_0_1_1128 rfl rfl rfl rfl rfl
    (val_main_v30 (F := Ideal) x0 x1 x2 x3 x4 x5) (val_main_v36 (F := Ideal) x2) e k (by decide)).trans ?_
  refine congrArg (fun r : Fin 50000 => val_main_v30 (F := Ideal) x0 x1 x2 x3 x4 x5 (ix2 r k)) (Fin.ext ?_)
  show min (val_main_v36 (F := Ideal) x2 (ix2 e (0 : Fin 1))).toInt.toNat (50000 - 1) = min (x2 (ix1 e)).toInt.toNat (50000 - 1)
  rw [v36_apply hu e]

/-- The second row gathered for edge e: the new features of its target node. -/
theorem v44_apply (hv : ∀ n : Fin 800000, 0 ≤ (x3 (ix1 n)).toInt) (e : Fin 800000) (k : Fin 128) :
    val_main_v44 (F := Ideal) x0 x1 x2 x3 x4 x5 (ix2 e k)
      = val_main_v30 (F := Ideal) x0 x1 x2 x3 x4 x5 (ix2 (node x3 e) k) := by
  unfold val_main_v44
  refine (GatherRows.gather_rows gather_S50000x128_S800000x1_S800000x128_1_0_n_n_0_1_1128 rfl rfl rfl rfl rfl
    (val_main_v30 (F := Ideal) x0 x1 x2 x3 x4 x5) (val_main_v43 (F := Ideal) x3) e k (by decide)).trans ?_
  refine congrArg (fun r : Fin 50000 => val_main_v30 (F := Ideal) x0 x1 x2 x3 x4 x5 (ix2 r k)) (Fin.ext ?_)
  show min (val_main_v43 (F := Ideal) x3 (ix2 e (0 : Fin 1))).toInt.toNat (50000 - 1) = min (x3 (ix1 e)).toInt.toNat (50000 - 1)
  rw [v43_apply hv e]

/-- Columns 0 … 127 of edge e's input row: the source node's row. -/
theorem v45_left (e : Fin 800000) (k : Fin 128) :
    val_main_v45 (F := Ideal) x0 x1 x2 x3 x4 x5 (ix2 e (half0 k)) = val_main_v37 (F := Ideal) x0 x1 x2 x3 x4 x5 (ix2 e k) := by
  unfold val_main_v45
  exact concatenate_pair_apply_left _ _ _ concatenates_S800000x128_S800000x128_S800000x256_d1 (ix2 e (half0 k)) rfl (ix2 e k)
    (fun b => match b with | ⟨0, _⟩ => rfl | ⟨1, _⟩ => rfl)

/-- Columns 128 … 255 of edge e's input row: the target node's row. -/
theorem v45_right (e : Fin 800000) (k : Fin 128) :
    val_main_v45 (F := Ideal) x0 x1 x2 x3 x4 x5 (ix2 e (half1 k)) = val_main_v44 (F := Ideal) x0 x1 x2 x3 x4 x5 (ix2 e k) := by
  unfold val_main_v45
  exact concatenate_pair_apply_right _ _ _ concatenates_S800000x128_S800000x128_S800000x256_d1 (ix2 e (half1 k)) rfl rfl (ix2 e k)
    (fun b hb => match b, hb with | ⟨0, _⟩, _ => rfl | ⟨1, _⟩, hb => (hb (Fin.ext rfl)).elim)
    (by show k.val + 128 = 128 + k.val; omega)

/-! ## The affine map -/

/-- Entry (e, j) of the product with the transposed weight: the sum over the 256 columns c of input (e, c) times
    weight (j, c). -/
theorem v47_apply (e : Fin 800000) (j : Fin 128) :
    val_main_v47 (F := Ideal) x0 x1 x2 x3 x4 x5 x6 (ix2 e j)
      = ∑ c : Fin 256, val_main_v45 (F := Ideal) x0 x1 x2 x3 x4 x5 (ix2 e c) * x6 (ix2 j c) := by
  rw [val_main_v47_apply]
  refine Finset.sum_congr rfl fun c _ => ?_
  have hl : lidx_main_v47 (ix2 e j) c = ix2 e c := by
    funext a; match a with | ⟨0, _⟩ => rfl | ⟨1, _⟩ => rfl
  have hr : ridx_main_v47 (ix2 e j) c = ix2 c j := by
    funext a; match a with | ⟨0, _⟩ => rfl | ⟨1, _⟩ => rfl
  have ht : idx_main_v46 (ix2 c j) = ix2 j c := by
    funext a; match a with | ⟨0, _⟩ => rfl | ⟨1, _⟩ => rfl
  rw [hl, hr, val_main_v46_apply, ht]

/-- The bias broadcast down the edges, at (e, j): bias j. -/
theorem v49_apply (e : Fin 800000) (j : Fin 128) : val_main_v49 (F := Ideal) x7 (ix2 e j) = x7 (ix1 j) := by
  rw [val_main_v49_apply, val_main_v48_apply]
  have hi : idx_main_v48 (idx_main_v49 (ix2 e j)) = ix1 j := by
    funext a; match a with | ⟨0, _⟩ => rfl
  rw [hi]

/-- The rectifier's zero. -/
theorem call2_v0_apply (i : S800000x128.Idx) : val_main_call2_v0 (F := Ideal) i = 0 := by
  rw [val_main_call2_v0_apply, val_main_call2_cst_apply]
  exact Ideal.ofBits_zero_f32

/-- THE EDGE RESULT, entry (e, j): the layer's formula for edge e's new feature j, over the nodes' new features. -/
theorem edge_entry (hu : ∀ n : Fin 800000, 0 ≤ (x2 (ix1 n)).toInt) (hv : ∀ n : Fin 800000, 0 ≤ (x3 (ix1 n)).toInt)
    (e : Fin 800000) (j : Fin 128) :
    val_main_v51 (F := Ideal) x0 x1 x2 x3 x4 x5 x6 x7 (ix2 e j)
      = edgeOut (nodeOut x0 x1 x2 x3 x4 x5) x2 x3 x6 x7 e j := by
  have h47 : val_main_v47 (F := Ideal) x0 x1 x2 x3 x4 x5 x6 (ix2 e j)
      = (∑ k : Fin 128, nodeOut x0 x1 x2 x3 x4 x5 (node x2 e) k * x6 (ix2 j (half0 k)))
          + ∑ k : Fin 128, nodeOut x0 x1 x2 x3 x4 x5 (node x3 e) k * x6 (ix2 j (half1 k)) := by
    have e0 : (∑ k : Fin 128, val_main_v45 (F := Ideal) x0 x1 x2 x3 x4 x5 (ix2 e (half0 k)) * x6 (ix2 j (half0 k)))
        = ∑ k : Fin 128, nodeOut x0 x1 x2 x3 x4 x5 (node x2 e) k * x6 (ix2 j (half0 k)) :=
      Finset.sum_congr rfl fun k _ => by rw [v45_left, v37_apply hu, node_entry hu]
    have e1 : (∑ k : Fin 128, val_main_v45 (F := Ideal) x0 x1 x2 x3 x4 x5 (ix2 e (half1 k)) * x6 (ix2 j (half1 k)))
        = ∑ k : Fin 128, nodeOut x0 x1 x2 x3 x4 x5 (node x3 e) k * x6 (ix2 j (half1 k)) :=
      Finset.sum_congr rfl fun k _ => by rw [v45_right, v44_apply hv, node_entry hu]
    rw [v47_apply, sum_fin256, e0, e1]
  rw [val_main_v51_apply, val_main_v50_apply, h47, v49_apply, call2_v0_apply]
  rfl

end Cert.ReferenceIdeal.RefValue

end
-- ==== Proof.RefValue.lean ====
import proofs.«427057_j9414568312948_3_alg».proof.Proof.RefRun
import proofs.«427057_j9414568312948_3_alg».proof.Proof.RefRead
import proofs.«427057_j9414568312948_3_alg».proof.Proof.Spec
import proofs.«427057_j9414568312948_3_alg».proof.Proof.LibScatterAddRows
import proofs.«427057_j9414568312948_3_alg».proof.Proof.LibGatherRows
import proofs.«427057_j9414568312948_3_alg».proof.Proof.RefValueNode
import proofs.«427057_j9414568312948_3_alg».proof.Proof.RefValueEdge
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Cert.ReferenceIdeal Cert.ReferenceIdeal.Gen Cert.Sage
open Idealize.ShloMosaic Idealize.ShloMosaic.TcCoe Idealize.ShloMosaic.ValueIdx Idealize.SL.Sem

/-- The reference's run with its two results read entry by entry: where no source word and no target word is negative,
    the first result is the nodes' new features and the second the edges', as the layer's formulas give them. -/
theorem run_spec (m : (ℓ : Loc nD τ sig) → Buf (Elt Ideal) ℓ) (ρ : Dev nD → PrngReg)
    (hu : ∀ (c : Dev nD) (n : Fin 800000), 0 ≤ ((m ((c.tc : Thread nD τ).loc main_arg2)) (ix1 n)).toInt)
    (hv : ∀ (c : Dev nD) (n : Fin 800000), 0 ≤ ((m ((c.tc : Thread nD τ).loc main_arg3)) (ix1 n)).toInt) :
    θ_run defs (onTc (τ := τ) (main (F := Ideal))) ⟨m, fun _ => 0, ρ⟩ fun r => ∀ c : Dev nD,
      (∀ (i : Fin 50000) (j : Fin 128), r.2.mem ((c.tc : Thread nD τ).loc main_v30) (ix2 i j)
          = nodeOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5)) i j)
      ∧ (∀ (e : Fin 800000) (j : Fin 128), r.2.mem ((c.tc : Thread nD τ).loc main_v51) (ix2 e j)
          = edgeOut (nodeOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5)))
              (m ((c.tc : Thread nD τ).loc main_arg2)) (m ((c.tc : Thread nD τ).loc main_arg3))
              (m ((c.tc : Thread nD τ).loc main_arg6)) (m ((c.tc : Thread nD τ).loc main_arg7)) e j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  -- the run leaves each result at the operations' composed term; that term is the last stage, read entry by entry
  refine (θ_run defs _ _).mono (fun r h c => ⟨fun i j => ?_, fun e j => ?_, (h c).2.2⟩)
    (Cert.ReferenceIdeal.Value.run (F := Ideal) m ρ)
  · rw [(h c).1, Read.val_main_v30_eq]
    exact node_entry (hu c) i j
  · rw [(h c).2.1, Read.val_main_v51_eq]
    exact edge_entry (hu c) (hv c) e j

end Cert.ReferenceIdeal.RefValue

end
-- ==== Proof.PreIds.lean ====
/-
  The precondition's index ranges, decoded.

  The printed precondition is a chain of conjunctions, each conjunct an "all" reduction of an array of one-bit words.
  Its last four conjuncts compare every source word with 0 and with 50000 and every target word with 0 and with
  50000, as signed integers. When the whole chain is one, each conjunct is one; an "all" reduction that is one had
  a one at every position; and a signed comparison word that is one says the inequality of the signed readings.
  The constants compared with are the words 0 and 50000 broadcast to every position; they read 0 and 50000.
-/
import proofs.«427057_j9414568312948_3_alg».proof.Pre_finite_inputs
import proofs.«427057_j9414568312948_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Pre_finite_inputs.Ids

open Cert.Pre_finite_inputs Idealize.ShloMosaic Idealize.ShloMosaic.ValueIdx

/-- The scalar shape has one index. -/
instance : Subsingleton S_.Idx := ⟨fun a b => funext fun d => d.elim0⟩

/-- The word 0 reads 0 and the word 50000 reads 50000. -/
private theorem toInt_zero : (0#32 : BitVec 32).toInt = 0 := by decide
private theorem toInt_50000 : (50000#32 : BitVec 32).toInt = 50000 := by decide

/-- An "all" of "every word is at least the broadcast 0" that is one: every word reads at least 0. -/
private theorem all_sge_zero [Facts] (a : IVec S800000 32)
    (e : Host.reduce IntOp.andi
          (cmpi .sge a (broadcastInDim S800000 ![] Facts.bcast_S_S800000 (constantI S_ 32 0#32)))
          (constantI S_ 1 1#1) Facts.reducesTo_S800000_S_d0 Facts.h_S_ ix0 = 1#1)
    (n : Fin 800000) : 0 ≤ (a (ix1 n)).toInt := by
  have h1 := Host.reduce_andi_all _ _ _ _ ix0 e (ix1 n)
  have h2 : IntOp.cmpi .sge (a (ix1 n)) (0#32) = 1#1 := h1
  have h3 := IntOp.cmpi_sge.1 h2
  rw [toInt_zero] at h3
  exact h3

/-- An "all" of "every word is below the broadcast 50000" that is one: every word reads below 50000. -/
private theorem all_slt_50000 [Facts] (a : IVec S800000 32)
    (e : Host.reduce IntOp.andi
          (cmpi .slt a (broadcastInDim S800000 ![] Facts.bcast_S_S800000 (constantI S_ 32 50000#32)))
          (constantI S_ 1 1#1) Facts.reducesTo_S800000_S_d0 Facts.h_S_ ix0 = 1#1)
    (n : Fin 800000) : (a (ix1 n)).toInt < 50000 := by
  have h1 := Host.reduce_andi_all _ _ _ _ ix0 e (ix1 n)
  have h2 : IntOp.cmpi .slt (a (ix1 n)) (50000#32) = 1#1 := h1
  have h3 := IntOp.cmpi_slt.1 h2
  rw [toInt_50000] at h3
  exact h3

/-- Under the precondition every source word and every target word, read as a signed integer, is a node's number:
    between 0 and 49999. -/
theorem ids_in_range (a0 : FVec Ideal S50000x128 .f32) (a1 : FVec Ideal S800000x128 .f32) (a2 a3 : IVec S800000 32)
    (a4 : FVec Ideal S128x384 .f32) (a5 : FVec Ideal S128 .f32) (a6 : FVec Ideal S128x256 .f32) (a7 : FVec Ideal S128 .f32)
    (h : Cert.Pre_finite_inputs.fn (F := Ideal) a0 a1 a2 a3 a4 a5 a6 a7 = fun _ => 1#1) :
    (∀ n : Fin 800000, 0 ≤ (a2 (ix1 n)).toInt ∧ (a2 (ix1 n)).toInt < 50000)
      ∧ (∀ n : Fin 800000, 0 ≤ (a3 (ix1 n)).toInt ∧ (a3 (ix1 n)).toInt < 50000) := by
  have e := congrFun h ix0
  dsimp only [Cert.Pre_finite_inputs.fn, Cert.Pre_finite_inputs.fn_part1, Cert.Pre_finite_inputs.fn_part2] at e
  simp only [andi, IntOp.andi_eq_one] at e
  obtain ⟨⟨⟨⟨-, h20⟩, h2n⟩, h30⟩, h3n⟩ := e
  exact ⟨fun n => ⟨all_sge_zero a2 h20 n, all_slt_50000 a2 h2n n⟩,
    fun n => ⟨all_sge_zero a3 h30 n, all_slt_50000 a3 h3n n⟩⟩

end Cert.Pre_finite_inputs.Ids

end
-- ==== Proof.lean ====
/-
  The certificate of the graph layer: mean aggregation of incoming messages, a node update and an edge update.

  Both programs compute, for node i, relu of an affine map of (own features, mean over incoming edges of the source
  node's features, mean over incoming edges of the edge's features), and for edge e relu of an affine map of (new
  features of its source, new features of its target); the formulas are Proof/Spec.lean's `nodeOut` and `edgeOut`.
  The kernel sums the source rows and the edge rows separately, counts in-degrees in integers, turns the sums into means
  inside its first pallas_call by a column of reciprocal in-degrees, and splits each matrix product over the weight's
  column blocks; the reference concatenates first and divides by the clamped count. Over the extended reals these are
  the same numbers: a quotient by a positive integer is the product with its reciprocal, addition is commutative and
  associative, and a change of float format is the identity.

  The two programs fetch rows differently for a NEGATIVE endpoint word (the reference wraps it around, the kernel clamps
  it to row 0), so the claim is stated where every endpoint word is a node's number, 0 … 49999; only the lower bound is
  used (from 50000 up both clamp to the last row).

  The three frames: the kernel's two are the generated frame certificates; the reference's is its run with the results
  dropped. The ideal pass rewrote nothing, so `preserves` is `True`.
-/
import proofs.«427057_j9414568312948_3_alg».proof.Defs
import proofs.«427057_j9414568312948_3_alg».proof.Proof.Gen.Kernel
import proofs.«427057_j9414568312948_3_alg».proof.Proof.Gen.Kernel.Skeleton
import proofs.«427057_j9414568312948_3_alg».proof.Proof.Gen.Kernel.Launch
import proofs.«427057_j9414568312948_3_alg».proof.Proof.Gen.Kernel.Points
import proofs.«427057_j9414568312948_3_alg».proof.Proof.Gen.Kernel.Frame
import proofs.«427057_j9414568312948_3_alg».proof.Proof.Gen.KernelIdeal
import proofs.«427057_j9414568312948_3_alg».proof.Proof.Gen.KernelIdeal.Skeleton
import proofs.«427057_j9414568312948_3_alg».proof.Proof.Gen.KernelIdeal.Launch
import proofs.«427057_j9414568312948_3_alg».proof.Proof.Gen.KernelIdeal.Points
import proofs.«427057_j9414568312948_3_alg».proof.Proof.Gen.KernelIdeal.Frame
import proofs.«427057_j9414568312948_3_alg».proof.Proof.Gen.ReferenceIdeal
import proofs.«427057_j9414568312948_3_alg».proof.Proof.RefRun
import proofs.«427057_j9414568312948_3_alg».proof.Proof.RefRead
import proofs.«427057_j9414568312948_3_alg».proof.Proof.Gen.Pre_finite_inputs
import proofs.«427057_j9414568312948_3_alg».proof.Proof.KernelValue
import proofs.«427057_j9414568312948_3_alg».proof.Proof.RefValue
import proofs.«427057_j9414568312948_3_alg».proof.Proof.PreIds
import Idealize.ShloMosaic.Adequacy
import Idealize.ShloMosaic.Init

set_option maxRecDepth 16384

noncomputable section

namespace Cert.Proof

open Idealize.ShloMosaic Idealize.ShloMosaic.ValueIdx Idealize.SL.Sem Cert.Sage

theorem frame_kernel : Cert.frame_Kernel := fun m ρ _ => Cert.Kernel.Gen.frame m ρ

theorem frame_kernelIdeal : Cert.frame_KernelIdeal := fun m ρ _ => Cert.KernelIdeal.Gen.frame m ρ

/-- Under the precondition no endpoint word of the idealized kernel's memory is negative. -/
theorem ids_nonneg (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ n : Fin 800000, 0 ≤ ((m ((c.tc : Thread Cert.KernelIdeal.nD Cert.KernelIdeal.τ).loc Cert.KernelIdeal.main_arg2)) (ix1 n)).toInt) ∧ (∀ n : Fin 800000, 0 ≤ ((m ((c.tc : Thread Cert.KernelIdeal.nD Cert.KernelIdeal.τ).loc Cert.KernelIdeal.main_arg3)) (ix1 n)).toInt) :=
  let h := Cert.Pre_finite_inputs.Ids.ids_in_range _ _ _ _ _ _ _ _ (hpre c)
  ⟨fun n => (h.1 n).1, fun n => (h.2 n).1⟩

/-- The reference's frame: its run with the results dropped; the run is read where no endpoint word is negative. -/
theorem frame_referenceIdeal : Cert.frame_ReferenceIdeal := fun m ρ hpre =>
  (θ_run Cert.ReferenceIdeal.defs _ _).mono (fun _ h c => (h c).2.2)
    (Cert.ReferenceIdeal.RefValue.run_spec m ρ
      (fun c n => ((Cert.Pre_finite_inputs.Ids.ids_in_range _ _ _ _ _ _ _ _ (hpre c)).1 n).1)
      (fun c n => ((Cert.Pre_finite_inputs.Ids.ids_in_range _ _ _ _ _ _ _ _ (hpre c)).2 n).1))

theorem preserves : Cert.preserves_Kernel_KernelIdeal := trivial

/-- Both programs end with the nodes' new features and the edges' new features. -/
theorem algebraic : Cert.algebraic_KernelIdeal_ReferenceIdeal := by
  intro m ρ m' ρ' hpre hagree
  have hm' : ∀ c : Dev Cert.ReferenceIdeal.nD,
      (∀ n : Fin 800000, 0 ≤ ((m' ((c.tc : Thread Cert.ReferenceIdeal.nD Cert.ReferenceIdeal.τ).loc Cert.ReferenceIdeal.main_arg2)) (ix1 n)).toInt)
      ∧ (∀ n : Fin 800000, 0 ≤ ((m' ((c.tc : Thread Cert.ReferenceIdeal.nD Cert.ReferenceIdeal.τ).loc Cert.ReferenceIdeal.main_arg3)) (ix1 n)).toInt) := by
    intro c
    rw [(hagree c).2.2.1, (hagree c).2.2.2.1]
    exact ids_nonneg m hpre c
  refine ⟨fun c y => nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (y 0) (y 1),
    fun c y => edgeOut (nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (y 0) (y 1), ?_, ?_⟩
  · refine (θ_run Cert.KernelIdeal.defs _ _).mono (fun r h c => ⟨?_, ?_, (h c).2.2⟩)
      (Cert.KernelIdeal.KernelValue.run_spec m ρ)
    · funext y
      exact (congrArg (fun z => r.2.mem ((c.tc : Thread Cert.KernelIdeal.nD Cert.KernelIdeal.τ).loc Cert.KernelIdeal.main_v28_0) z) (eq_ix2 y)).trans ((h c).1 (y 0) (y 1))
    · funext y
      exact (congrArg (fun z => r.2.mem ((c.tc : Thread Cert.KernelIdeal.nD Cert.KernelIdeal.τ).loc Cert.KernelIdeal.main_v37) z) (eq_ix2 y)).trans ((h c).2.1 (y 0) (y 1))
  · refine (θ_run Cert.ReferenceIdeal.defs _ _).mono (fun r h c => ⟨?_, ?_, (h c).2.2⟩)
      (Cert.ReferenceIdeal.RefValue.run_spec m' ρ' (fun c n => (hm' c).1 n) (fun c n => (hm' c).2 n))
    · funext y
      have e := (h c).1 (y 0) (y 1)
      rw [(hagree c).1, (hagree c).2.1, (hagree c).2.2.1, (hagree c).2.2.2.1, (hagree c).2.2.2.2.1,
        (hagree c).2.2.2.2.2.1] at e
      exact (congrArg (fun z => r.2.mem ((c.tc : Thread Cert.ReferenceIdeal.nD Cert.ReferenceIdeal.τ).loc Cert.ReferenceIdeal.main_v30) z) (eq_ix2 y)).trans e
    · funext y
      have e := (h c).2.1 (y 0) (y 1)
      rw [(hagree c).1, (hagree c).2.1, (hagree c).2.2.1, (hagree c).2.2.2.1, (hagree c).2.2.2.2.1,
        (hagree c).2.2.2.2.2.1, (hagree c).2.2.2.2.2.2.1, (hagree c).2.2.2.2.2.2.2] at e
      exact (congrArg (fun z => r.2.mem ((c.tc : Thread Cert.ReferenceIdeal.nD Cert.ReferenceIdeal.τ).loc Cert.ReferenceIdeal.main_v51) z) (eq_ix2 y)).trans e

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
